-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩
abbrev S400x2560 : Shape := ⟨2, ![400, 2560]⟩
abbrev S2560x128 : Shape := ⟨2, ![2560, 128]⟩
abbrev S400x2320 : Shape := ⟨2, ![400, 2320]⟩
abbrev S2320x128 : Shape := ⟨2, ![2320, 128]⟩

abbrev nBuf : Space → Nat
  | .hbm => 5
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c25_i32_23 : BitVec 32 := 25#32
  let c0_i32_24 : BitVec 32 := 0#32
  let v35 : BitVec 1 := Scalar.cmpi .eq c25_i32_23 c0_i32_24
  let c1_i32 : BitVec 32 := 1#32
  let v36 : BitVec 32 := Scalar.select v35 c1_i32 c25_i32_23
  let v37 : BitVec 32 := Scalar.remsi arg0 v36
  let c0_i32_26 : BitVec 32 := 0#32
  let v39 : BitVec 1 := Scalar.cmpi .slt v37 c0_i32_26
  let c0_i32_27 : BitVec 32 := 0#32
  let v40 : BitVec 1 := Scalar.cmpi .slt v36 c0_i32_27
  let v41 : BitVec 1 := Scalar.xori v39 v40
  let c0_i32_25 : BitVec 32 := 0#32
  let v38 : BitVec 1 := Scalar.cmpi .ne v37 c0_i32_25
  let v42 : BitVec 1 := Scalar.andi v41 v38
  let v43 : BitVec 32 := Scalar.addi v37 v36
  let v44 : BitVec 32 := Scalar.select v42 v43 v37
  let c400_i32 : BitVec 32 := 400#32
  let v45 : BitVec 32 := Scalar.muli v44 c400_i32
  let v46 : Index := Scalar.indexCast v45
  let c0_28 : Index := 0#32
  ![v46.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c25_i32 : BitVec 32 := 25#32
  let v0 : BitVec 1 := Scalar.cmpi .sge arg0 c25_i32
  let c25_i32_0 : BitVec 32 := 25#32
  let v1 : BitVec 32 := Scalar.subi arg0 c25_i32_0
  let c0_i32 : BitVec 32 := 0#32
  let v2 : BitVec 32 := Scalar.select v0 v1 c0_i32
  let c0_i32_1 : BitVec 32 := 0#32
  let c0_i32_2 : BitVec 32 := 0#32
  ![v2.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x2560_0_0 : ∀ a, (![0, 0] : Fin 2 → Nat) a + S400x2560.size a ≤ S400x10000.size a
  h_S400x2560 : 0 < S400x2560.numel
  inb_S10000x128_S2560x128_0_0 : ∀ a, (![0, 0] : Fin 2 → Nat) a + S2560x128.size a ≤ S10000x128.size a
  h_S2560x128 : 0 < S2560x128.numel
  inb_S400x10000_S400x2560_0_2560 : ∀ a, (![0, 2560] : Fin 2 → Nat) a + S400x2560.size a ≤ S400x10000.size a
  inb_S10000x128_S2560x128_2560_0 : ∀ a, (![2560, 0] : Fin 2 → Nat) a + S2560x128.size a ≤ S10000x128.size a
  inb_S400x10000_S400x2560_0_5120 : ∀ a, (![0, 5120] : Fin 2 → Nat) a + S400x2560.size a ≤ S400x10000.size a
  inb_S10000x128_S2560x128_5120_0 : ∀ a, (![5120, 0] : Fin 2 → Nat) a + S2560x128.size a ≤ S10000x128.size a
  inb_S400x10000_S400x2320_0_7680 : ∀ a, (![0, 7680] : Fin 2 → Nat) a + S400x2320.size a ≤ S400x10000.size a
  h_S400x2320 : 0 < S400x2320.numel
  inb_S10000x128_S2320x128_7680_0 : ∀ a, (![7680, 0] : Fin 2 → Nat) a + S2320x128.size a ≤ S10000x128.size a
  h_S2320x128 : 0 < S2320x128.numel
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x2560_S2560x128_S400x128_1_0_0_1_n_n_wf : DotDims.WF S400x2560 S2560x128 S400x128 [1] [0] [0] [1] [] []
  dot_S400x2320_S2320x128_S400x128_1_0_0_1_n_n_wf : DotDims.WF S400x2320 S2320x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  k0_off1_packedbf16 : ∀ i : grid0.Coords, ∀ (k0_h2 : k0_cond2 i = 1#1), (Rect.unit (s := S10000x128) (k0_off1 i) S400x128.size (k0_off1_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x2560_S2560x128_S400x128_1_0_0_1_n_n : DotDims S400x2560 S2560x128 S400x128 where
  lhsContracting := [1]
  rhsContracting := [0]
  lhsNonContracting := [0]
  rhsNonContracting := [1]
  lhsBatch := []
  rhsBatch := []
  wf := dot_S400x2560_S2560x128_S400x128_1_0_0_1_n_n_wf
def dot_S400x2320_S2320x128_S400x128_1_0_0_1_n_n : DotDims S400x2320 S2320x128 S400x128 where
  lhsContracting := [1]
  rhsContracting := [0]
  lhsNonContracting := [0]
  rhsNonContracting := [1]
  lhsBatch := []
  rhsBatch := []
  wf := dot_S400x2320_S2320x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KI.Terms.lean ====
/-
  The values the kernel body computes at one grid point, as functions of what its buffers hold.

  The adjacency block of a point is 400 rows of the adjacency matrix, all 10000 columns. The body reads it
  in four column chunks (2560, 2560, 2560 and 2320 columns) and reads the matching row chunks of a
  10000 x 128 scratch array; each chunk pair is multiplied and the four products are added. With the
  first scratch (the product of the features and the first weight matrix) the sum is clipped below at zero
  and multiplied by the second weight matrix: that is one 400-row block of the second scratch. With the
  second scratch the sum itself is one 400-row block of the result.
-/
import proofs.«152327_g12867722019435_cont_9to1_m_966_9_alg».proof.Proof.Gen.KernelIdeal.Frame
import proofs.«152327_g12867722019435_cont_9to1_m_966_9_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four column chunks of an adjacency block and the four row chunks of a scratch array -/

/-- Columns 0 to 2559 of a 400 x 10000 block. -/
def aC0 (a : Vec F S400x10000 .f32) : Vec F S400x2560 .f32 :=
  fun x => a ((Rect.unit (s := S400x10000) ![0, 0] S400x2560.size inb_S400x10000_S400x2560_0_0).toLoadRect.idx x)
/-- Columns 2560 to 5119. -/
def aC1 (a : Vec F S400x10000 .f32) : Vec F S400x2560 .f32 :=
  fun x => a ((Rect.unit (s := S400x10000) ![0, 2560] S400x2560.size inb_S400x10000_S400x2560_0_2560).toLoadRect.idx x)
/-- Columns 5120 to 7679. -/
def aC2 (a : Vec F S400x10000 .f32) : Vec F S400x2560 .f32 :=
  fun x => a ((Rect.unit (s := S400x10000) ![0, 5120] S400x2560.size inb_S400x10000_S400x2560_0_5120).toLoadRect.idx x)
/-- Columns 7680 to 9999. -/
def aC3 (a : Vec F S400x10000 .f32) : Vec F S400x2320 .f32 :=
  fun x => a ((Rect.unit (s := S400x10000) ![0, 7680] S400x2320.size inb_S400x10000_S400x2320_0_7680).toLoadRect.idx x)

/-- Rows 0 to 2559 of a 10000 x 128 array. -/
def sR0 (s : Vec F S10000x128 .bf16) : Vec F S2560x128 .bf16 :=
  fun x => s ((Rect.unit (s := S10000x128) ![0, 0] S2560x128.size inb_S10000x128_S2560x128_0_0).toLoadRect.idx x)
/-- Rows 2560 to 5119. -/
def sR1 (s : Vec F S10000x128 .bf16) : Vec F S2560x128 .bf16 :=
  fun x => s ((Rect.unit (s := S10000x128) ![2560, 0] S2560x128.size inb_S10000x128_S2560x128_2560_0).toLoadRect.idx x)
/-- Rows 5120 to 7679. -/
def sR2 (s : Vec F S10000x128 .bf16) : Vec F S2560x128 .bf16 :=
  fun x => s ((Rect.unit (s := S10000x128) ![5120, 0] S2560x128.size inb_S10000x128_S2560x128_5120_0).toLoadRect.idx x)
/-- Rows 7680 to 9999. -/
def sR3 (s : Vec F S10000x128 .bf16) : Vec F S2320x128 .bf16 :=
  fun x => s ((Rect.unit (s := S10000x128) ![7680, 0] S2320x128.size inb_S10000x128_S2320x128_7680_0).toLoadRect.idx x)

/-- A 128 x 128 weight matrix read whole. -/
def wAll (w : Vec F S128x128 .f32) : Vec F S128x128 .f32 :=
  fun x => w ((Rect.unit (s := S128x128) ![0, 0] S128x128.size inb_S128x128_S128x128_0_0).toLoadRect.idx x)
/-- The 10000 x 128 feature matrix read whole. -/
def xAll (x : Vec F S10000x128 .f32) : Vec F S10000x128 .f32 :=
  fun j => x ((Rect.unit (s := S10000x128) ![0, 0] S10000x128.size inb_S10000x128_S10000x128_0_0).toLoadRect.idx j)

/-! ## What the body computes -/

/-- The first scratch: features times the first weight matrix. -/
def s1Of (x : Vec F S10000x128 .f32) (w1 : Vec F S128x128 .f32) : Vec F S10000x128 .bf16 :=
  k0_pay1 (xAll x) (wAll w1)

/-- One 400-row block of the second scratch: the adjacency block times the first scratch, clipped below at zero,
    times the second weight matrix. -/
def l1Blk (a : Vec F S400x10000 .f32) (s : Vec F S10000x128 .bf16) (w2 : Vec F S128x128 .f32) : Vec F S400x128 .bf16 :=
  k0_pay2 (k0_pay4 (aC0 a) (sR0 s) (aC1 a) (sR1 s) (aC2 a) (sR2 s) (aC3 a) (sR3 s) (wAll w2))

/-- One 400-row block of the result: the adjacency block times the second scratch. -/
def l2Blk (a : Vec F S400x10000 .f32) (s : Vec F S10000x128 .bf16) : Vec F S400x128 .f32 :=
  k0_pay3 (aC0 a) (sR0 s) (aC1 a) (sR1 s) (aC2 a) (sR2 s) (aC3 a) (sR3 s)

/-! ## The body's three conditions -/

/-- The first conditional's test: the point is the first of the grid. -/
abbrev cond1 (i : grid0.Coords) : Prop :=
  (Scalar.cmpi .ne (Scalar.extui (Scalar.cmpi .eq (BitVec.ofNat 32 (i 0).val) 0#32)) 0#32) = 1#1
/-- The second conditional's test: the point is one of the first 25. -/
abbrev cond2 (i : grid0.Coords) : Prop := k0_cond2 i = 1#1
/-- The third conditional's test: the point is one of the last 25. -/
abbrev cond3 (i : grid0.Coords) : Prop := k0_cond3 i = 1#1

end Cert.KernelIdeal.Body

end
-- ==== Proof.KI.Sched.lean ====
/-
  The schedule over the 50 grid points, in closed form: which of the body's three conditionals a point takes, the
  row offset of the block a point stores into the second scratch, where the output window is idle and where it is
  written back, and which block of the adjacency matrix and of the result a point works on.
-/
import proofs.«152327_g12867722019435_cont_9to1_m_966_9_alg».proof.Proof.KI.Terms

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The prologue runs at the first point only. -/
theorem hcond1 : ∀ t : Fin cfg0.N, cond1 (grid0.coords t) ↔ t.val = 0 :=
  (by decide +kernel : ∀ t : Fin grid0.N, cond1 (grid0.coords t) ↔ t.val = 0)
/-- The first pass over the adjacency matrix is points 0 to 24. -/
theorem hcond2 : ∀ t : Fin cfg0.N, cond2 (grid0.coords t) ↔ t.val < 25 :=
  (by decide +kernel : ∀ t : Fin grid0.N, cond2 (grid0.coords t) ↔ t.val < 25)
/-- The second pass is points 25 to 49. -/
theorem hcond3 : ∀ t : Fin cfg0.N, cond3 (grid0.coords t) ↔ 25 ≤ t.val :=
  (by decide +kernel : ∀ t : Fin grid0.N, cond3 (grid0.coords t) ↔ 25 ≤ t.val)

/-- In the first pass point t stores rows 400 t to 400 t + 399 of the second scratch. -/
theorem off1_eq : ∀ t : Fin cfg0.N, t.val < 25 → k0_off1 (grid0.coords t) = ![t.val * 400, 0] :=
  (by decide +kernel : ∀ t : Fin grid0.N, t.val < 25 → k0_off1 (grid0.coords t) = ![t.val * 400, 0])

/-- The four input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle through the first pass and is not written back there. -/
theorem idle4 : ∀ t : Fin cfg0.N, t.val < 25 → cfg0.idle 4 (grid0.coords t) = true := by decide +kernel
theorem noflush4 : ∀ t : Fin cfg0.N, t.val < 25 → (cfg0.win 4).flush t = false := by decide +kernel
/-- In the second pass it is stored at every point and written back after every point. -/
theorem live4 : ∀ t : Fin cfg0.N, 25 ≤ t.val → cfg0.idle 4 (grid0.coords t) = false := by decide +kernel
theorem flush4 : ∀ t : Fin cfg0.N, 25 ≤ t.val → (cfg0.win 4).flush t = true := by decide +kernel

/-- Point t works on adjacency rows 400 (t mod 25) onwards. -/
theorem index3 : ∀ t : Fin cfg0.N, (cfg0.win 3).index t = ![t.val % 25, 0] :=
  (by decide +kernel : ∀ t : Fin grid0.N, win0_3.index t = ![t.val % 25, 0])
/-- In the second pass point t writes result rows 400 (t - 25) onwards. -/
theorem index4 : ∀ t : Fin cfg0.N, 25 ≤ t.val → (cfg0.win 4).index t = ![t.val - 25, 0] :=
  (by decide +kernel : ∀ t : Fin grid0.N, 25 ≤ t.val → win0_4.index t = ![t.val - 25, 0])
/-- The three resident windows sit at block 0 throughout. -/
theorem index0 : ∀ t : Fin cfg0.N, (cfg0.win 0).index t = ![0, 0] :=
  (by decide +kernel : ∀ t : Fin grid0.N, win0_0.index t = ![0, 0])
theorem index1 : ∀ t : Fin cfg0.N, (cfg0.win 1).index t = ![0, 0] :=
  (by decide +kernel : ∀ t : Fin grid0.N, win0_1.index t = ![0, 0])
theorem index2 : ∀ t : Fin cfg0.N, (cfg0.win 2).index t = ![0, 0] :=
  (by decide +kernel : ∀ t : Fin grid0.N, win0_2.index t = ![0, 0])

/-- The grid has 50 points. -/
theorem N50 : cfg0.N = 50 := N_0

end Cert.KernelIdeal.Body

end
-- ==== Proof.KI.Data.lean ====
/-
  The proof data of the one pipeline.

  The first scratch holds, from the first point on, the product S1 of the features and the first weight matrix.
  The second scratch is filled 400 rows at a time by the first 25 points: after n of them its rows below 400 n
  hold S2, where row r of S2 is row (r mod 400) of the block the point r / 400 computes from its adjacency block,
  S1 and the second weight matrix; its other rows hold whatever they held. From point 25 on all 10000 rows hold S2,
  and the output block of point t is the product of the point's adjacency block and S2.
  The output window is idle through the first 25 points (nothing is stored into it and it is not written back).
-/
import proofs.«152327_g12867722019435_cont_9to1_m_966_9_alg».proof.Proof.KI.Sched
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The staging memrefs at a point, and the two scratch arrays -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S400x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The first scratch array (S1). -/
abbrev scM6 : Memref sig .tc .vmem S10000x128 .bf16 := Memref.whole cc0_scratch0
/-- The second scratch array (S2). -/
abbrev scM7 : Memref sig .tc .vmem S10000x128 .bf16 := Memref.whole cc0_scratch1

/-- What the launch hands the region: both scratch arrays at some contents, the generator register at some state. -/
theorem PhiA_eq (c : Dev nD) :
    (Pipeline.ΦA spec0 c : sProp 𝕄)
      = iprop(iprop((∃ d, owns (c : Thread nD τ) scM6 fullShare d) ∗ (∃ d, owns (c : Thread nD τ) scM7 fullShare d)) ∗ (∃ r, prngReg c r)) := by
  unfold Pipeline.ΦA; rw [scopedRest0_eq]; simp only [scM6, scM7, owns_whole]; try rfl

/-! ## The input blocks at a point, at their literal types -/

/-- The feature matrix (the window is the whole array at every point). -/
abbrev b0 (c : Dev nD) (t : Fin cfg0.N) : Vec F S10000x128 .f32 := iblk m c 0 t
/-- The first weight matrix. -/
abbrev b1 (c : Dev nD) (t : Fin cfg0.N) : Vec F S128x128 .f32 := iblk m c 1 t
/-- The second weight matrix. -/
abbrev b2 (c : Dev nD) (t : Fin cfg0.N) : Vec F S128x128 .f32 := iblk m c 2 t
/-- The point's 400 rows of the adjacency matrix. -/
abbrev b3 (c : Dev nD) (t : Fin cfg0.N) : Vec F S400x10000 .f32 := iblk m c 3 t

/-- The first grid point. -/
def t0 : Fin cfg0.N := ⟨0, by rw [N50]; omega⟩

/-- S1: the features times the first weight matrix, as the first point computes it. -/
def S1 (c : Dev nD) : Vec F S10000x128 .bf16 := s1Of (b0 m c t0) (b1 m c t0)

/-- The point of the first pass that computes row r: r / 400. -/
def tRow (y : S10000x128.Idx) : Fin cfg0.N :=
  ⟨(y 0).val / 400, by rw [N50]; have h : (y 0).val < 10000 := (y 0).isLt; omega⟩

/-- S2, row by row: row r is row (r mod 400) of the block point r / 400 computes. -/
def S2 (c : Dev nD) : Vec F S10000x128 .bf16 := fun y =>
  l1Blk (b3 m c (tRow y)) (S1 m c) (b2 m c (tRow y))
    (ix2 (⟨(y 0).val % 400, Nat.mod_lt _ (by omega)⟩ : Fin 400) (⟨(y 1).val, (y 1).isLt⟩ : Fin 128))

/-- What is known of the second scratch before point n: its rows below 400 min(n, 25) hold S2. -/
def Inv7 (c : Dev nD) (n : ℕ) (f : Vec F S10000x128 .bf16) : Prop :=
  ∀ y : S10000x128.Idx, (y 0).val < min n 25 * 400 → f y = S2 m c y

/-- From point 25 on the second scratch is S2. -/
theorem Inv7.eq_S2 {c : Dev nD} {n : ℕ} {f : Vec F S10000x128 .bf16} (h : Inv7 m c n f) (hn : 25 ≤ n) : f = S2 m c :=
  funext fun y => h y (by have hy : (y 0).val < 10000 := (y 0).isLt; rw [Nat.min_eq_right hn]; omega)

/-- Once all rows hold S2 they do at every later point. -/
theorem Inv7.of_eq (c : Dev nD) (n : ℕ) : Inv7 m c n (S2 m c) := fun _ _ => rfl

/-! ## The region invariant -/

/-- Before the first point: both scratch arrays at anything. Before point n + 1: the first scratch at S1, the second
    with its rows below 400 min(n + 1, 25) at S2; the generator register at some state throughout. -/
def Phi (c : Dev nD) : (n : ℕ) → n ≤ cfg0.N → sProp 𝕄
  | 0, _ => Pipeline.ΦA spec0 c
  | n + 1, _ => iprop(iprop(owns (c : Thread nD τ) scM6 fullShare (S1 m c)
      ∗ (∃ f, ⌜Inv7 m c (n + 1) f⌝ ∗ owns (c : Thread nD τ) scM7 fullShare f)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n + 1 ≤ cfg0.N) :
    Phi m c (n + 1) hn = iprop(iprop(owns (c : Thread nD τ) scM6 fullShare (S1 m c)
      ∗ (∃ f, ⌜Inv7 m c (n + 1) f⌝ ∗ owns (c : Thread nD τ) scM7 fullShare f)) ∗ (∃ r, prngReg c r)) := rfl

theorem Phi_pos (c : Dev nD) (n : ℕ) (h : n ≤ cfg0.N) (hz : n ≠ 0) :
    Phi m c n h = iprop(iprop(owns (c : Thread nD τ) scM6 fullShare (S1 m c)
      ∗ (∃ f, ⌜Inv7 m c n f⌝ ∗ owns (c : Thread nD τ) scM7 fullShare f)) ∗ (∃ r, prngReg c r)) := by
  cases n with
  | zero => exact absurd rfl hz
  | succ n => rfl

/-! ## The proof data -/

/-- The arrays as the region finds them; after the body each input window holds its block and the output window the
    product of the point's adjacency block and S2 (consulted only at the points that store it); the invariant `Phi`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => l2Blk (b3 m c t) (S2 m c)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = l2Blk (b3 m c t) (S2 m c) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation's two sides, the windows one by one -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- An input window's buffer is left at its block. -/
theorem leaves0 (c : Dev nD) (t : Fin cfg0.N) :
    (dats m 0 c).leavesExact 0 t = owns (c : Thread nD τ) (ms0 t) fullShare (b0 m c t) := by
  rw [show (dats m 0 c).leavesExact 0 t = owns (c : Thread nD τ) (ms0 t) fullShare ((dats m 0 c).after 0 t) from by
    unfold Dat.leavesExact; rw [live0 t], after0]
theorem leaves1 (c : Dev nD) (t : Fin cfg0.N) :
    (dats m 0 c).leavesExact 1 t = owns (c : Thread nD τ) (ms1 t) fullShare (b1 m c t) := by
  rw [show (dats m 0 c).leavesExact 1 t = owns (c : Thread nD τ) (ms1 t) fullShare ((dats m 0 c).after 1 t) from by
    unfold Dat.leavesExact; rw [live1 t], after1]
theorem leaves2 (c : Dev nD) (t : Fin cfg0.N) :
    (dats m 0 c).leavesExact 2 t = owns (c : Thread nD τ) (ms2 t) fullShare (b2 m c t) := by
  rw [show (dats m 0 c).leavesExact 2 t = owns (c : Thread nD τ) (ms2 t) fullShare ((dats m 0 c).after 2 t) from by
    unfold Dat.leavesExact; rw [live2 t], after2]
theorem leaves3 (c : Dev nD) (t : Fin cfg0.N) :
    (dats m 0 c).leavesExact 3 t = owns (c : Thread nD τ) (ms3 t) fullShare (b3 m c t) := by
  rw [show (dats m 0 c).leavesExact 3 t = owns (c : Thread nD τ) (ms3 t) fullShare ((dats m 0 c).after 3 t) from by
    unfold Dat.leavesExact; rw [live3 t], after3]
/-- Through the first pass the output window's buffer is handed back as found. -/
theorem leaves4_idle (c : Dev nD) (t : Fin cfg0.N) (h : t.val < 25) :
    (dats m 0 c).leavesExact 4 t = iprop(∃ d, owns (c : Thread nD τ) (ms4 t) fullShare ((dats m 0 c).before 4 t d)) :=
  Dat.leavesExact_idle (dats m 0 c) 4 t (idle4 t h) (noflush4 t h)
/-- In the second pass it is left at the point's block of the result. -/
theorem leaves4_live (c : Dev nD) (t : Fin cfg0.N) (h : 25 ≤ t.val) :
    (dats m 0 c).leavesExact 4 t = owns (c : Thread nD τ) (ms4 t) fullShare (l2Blk (b3 m c t) (S2 m c)) := by
  rw [show (dats m 0 c).leavesExact 4 t = owns (c : Thread nD τ) (ms4 t) fullShare ((dats m 0 c).after 4 t) from by
    unfold Dat.leavesExact; rw [live4 t h], after4]

end Cert.KernelIdeal.Body

end
-- ==== Proof.KI.Scratch.lean ====
/-
  One step of the first pass on the second scratch: storing the point's 400-row block at rows 400 t onwards, over
  contents whose rows below 400 t already hold S2, leaves contents whose rows below 400 (t + 1) hold S2. A row inside
  the stored block reads the block at (row - 400 t, column), which is S2 there because row / 400 = t; a row outside
  it reads what was there before.
-/
import proofs.«152327_g12867722019435_cont_9to1_m_966_9_alg».proof.Proof.KI.Data
import Idealize.ShloMosaic.Lib.WritesUnit
import Idealize.ShloMosaic.Lib.WholeRead

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The invariant of the second scratch advances by one point of the first pass. -/
theorem upd_inv (c : Dev nD) (t : Fin cfg0.N) (ht : t.val < 25) (hc2 : cond2 (grid0.coords t))
    (xs7 : Vec F S10000x128 .bf16) (hx : Inv7 m c t.val xs7)
    (M : Memref sig .tc .vmem S10000x128 .bf16) (hM : M.IsWhole) :
    Inv7 m c (t.val + 1) (M.view.read (Elt F) (M.view.writes (Elt F) (hM.unread xs7)
      [⟨Rect.unit (s := S10000x128) (k0_off1 (grid0.coords t)) S400x128.size (k0_off1_inb (grid0.coords t) hc2),
        l1Blk (b3 m c t) (S1 m c) (b2 m c t)⟩])) := by
  intro y hy
  have h0 : (y 0).val < 10000 := (y 0).isLt
  have hoff := off1_eq t ht
  by_cases hin : t.val * 400 ≤ (y 0).val
  · -- inside the stored block
    have hlt : (y 0).val < t.val * 400 + 400 := by
      rw [Nat.min_eq_left (by omega)] at hy; omega
    have ht' : tRow y = t := Fin.ext (by show (y 0).val / 400 = t.val; omega)
    refine (View.read_writes_cons_rows_of_mem (v := M.view) (hM.unread xs7) (k0_off1_inb (grid0.coords t) hc2)
      (l1Blk (b3 m c t) (S1 m c) (b2 m c t)) [] y
      (ix2 (⟨(y 0).val % 400, Nat.mod_lt _ (by omega)⟩ : Fin 400) (⟨(y 1).val, (y 1).isLt⟩ : Fin 128)) hoff
      (by show (y 0).val = t.val * 400 + (y 0).val % 400; omega) rfl).trans ?_
    unfold S2
    rw [ht']
  · -- outside it
    have hlt : (y 0).val < t.val * 400 := by omega
    refine (View.read_writes_cons_rows_of_not_mem (v := M.view) (hM.unread xs7) (k0_off1_inb (grid0.coords t) hc2)
      (l1Blk (b3 m c t) (S1 m c) (b2 m c t)) [] y hoff (W := 400) rfl (Or.inl hlt)).trans ?_
    rw [View.writes_nil, hM.read_unread xs7]
    exact hx y (by rw [Nat.min_eq_left (by omega)]; exact hlt)

end Cert.KernelIdeal.Body

end
-- ==== Proof.KI.RunA.lean ====
/-
  The body at the first point: the prologue stores the product of the features and the first weight matrix into
  the first scratch, whole; then the first pass's step reads that scratch back chunk by chunk (what it reads is
  what was just stored) and stores rows 0 to 399 of the second scratch.
-/
import proofs.«152327_g12867722019435_cont_9to1_m_966_9_alg».proof.Proof.KI.Terms
import Idealize.ShloMosaic.Lib.WholeRead

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets `![0, 0]` are the zero offsets. -/
private theorem zeros_S10000x128 : (![0, 0] : Fin S10000x128.rank → ℕ) = fun _ => 0 := by
  funext a; fin_cases a <;> rfl

/-- After one store of `P` through the whole array, a load of any box reads `P` at the box's indices. -/
private theorem readCov_whole_store (v : View sig .tc .vmem S10000x128 .bf16) (P : Vec F S10000x128 .bf16)
    (B : LoadRect S10000x128) :
    v.readCov [(⟨Rect.unit (s := S10000x128) ![0, 0] S10000x128.size inb_S10000x128_S10000x128_0_0, P⟩ :
        View.Piece (Elt F) S10000x128 .bf16)] B = fun j => P (B.idx j) := by
  rw [View.readCov_eq_canon', View.canon_unit_zero zeros_S10000x128]

/-- After one store of `P` through the whole array, the array reads `P`, whatever it held before. -/
private theorem read_whole_store (v : View sig .tc .vmem S10000x128 .bf16) (f : v.ty.Contents (Elt F))
    (P : Vec F S10000x128 .bf16) :
    v.read (Elt F) (v.writes (Elt F) f
      [(⟨Rect.unit (s := S10000x128) ![0, 0] S10000x128.size inb_S10000x128_S10000x128_0_0, P⟩ :
        View.Piece (Elt F) S10000x128 .bf16)]) = P := by
  have hcov : ∀ y : S10000x128.Idx, ∃ p ∈ [(⟨Rect.unit (s := S10000x128) ![0, 0] S10000x128.size inb_S10000x128_S10000x128_0_0, P⟩ :
        View.Piece (Elt F) S10000x128 .bf16)], y ∈ p.1.set := fun y =>
    ⟨_, List.mem_singleton_self _, View.mem_set_unit_zero zeros_S10000x128 inb_S10000x128_S10000x128_0_0 y⟩
  rw [View.read_writes_eq_canon v f _ hcov, View.canon_unit_zero zeros_S10000x128]

/-- After one store of `P` through the whole array, the load of rows 0 to 2559 reads that row chunk of `P`. -/
private theorem readCov_sR0 (v : View sig .tc .vmem S10000x128 .bf16) (P : Vec F S10000x128 .bf16) :
    v.readCov [(⟨Rect.unit (s := S10000x128) ![0, 0] S10000x128.size inb_S10000x128_S10000x128_0_0, P⟩ :
        View.Piece (Elt F) S10000x128 .bf16)]
      (Rect.unit (s := S10000x128) ![0, 0] S2560x128.size inb_S10000x128_S2560x128_0_0).toLoadRect = sR0 P :=
  readCov_whole_store v P _

/-- The same for rows 2560 to 5119. -/
private theorem readCov_sR1 (v : View sig .tc .vmem S10000x128 .bf16) (P : Vec F S10000x128 .bf16) :
    v.readCov [(⟨Rect.unit (s := S10000x128) ![0, 0] S10000x128.size inb_S10000x128_S10000x128_0_0, P⟩ :
        View.Piece (Elt F) S10000x128 .bf16)]
      (Rect.unit (s := S10000x128) ![2560, 0] S2560x128.size inb_S10000x128_S2560x128_2560_0).toLoadRect = sR1 P :=
  readCov_whole_store v P _

/-- The same for rows 5120 to 7679. -/
private theorem readCov_sR2 (v : View sig .tc .vmem S10000x128 .bf16) (P : Vec F S10000x128 .bf16) :
    v.readCov [(⟨Rect.unit (s := S10000x128) ![0, 0] S10000x128.size inb_S10000x128_S10000x128_0_0, P⟩ :
        View.Piece (Elt F) S10000x128 .bf16)]
      (Rect.unit (s := S10000x128) ![5120, 0] S2560x128.size inb_S10000x128_S2560x128_5120_0).toLoadRect = sR2 P :=
  readCov_whole_store v P _

/-- The same for rows 7680 to 9999. -/
private theorem readCov_sR3 (v : View sig .tc .vmem S10000x128 .bf16) (P : Vec F S10000x128 .bf16) :
    v.readCov [(⟨Rect.unit (s := S10000x128) ![0, 0] S10000x128.size inb_S10000x128_S10000x128_0_0, P⟩ :
        View.Piece (Elt F) S10000x128 .bf16)]
      (Rect.unit (s := S10000x128) ![7680, 0] S2320x128.size inb_S10000x128_S2320x128_7680_0).toLoadRect = sR3 P :=
  readCov_whole_store v P _

set_option maxHeartbeats 4000000 in
theorem runA (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S400x10000 .f32) (harg4 : arg4.IsWhole)
    (arg5 : Memref sig .tc .vmem S400x128 .f32) (harg5 : arg5.IsWhole) (arg6 : Memref sig .tc .vmem S10000x128 .bf16) (harg6 : arg6.IsWhole)
    (arg7 : Memref sig .tc .vmem S10000x128 .bf16) (harg7 : arg7.IsWhole)
    (hc1 : cond1 i) (hc2 : cond2 i) (hc3 : ¬cond3 i)
    (x1 : Vec F S10000x128 .f32) (x2 x3 : Vec F S128x128 .f32) (x4 : Vec F S400x10000 .f32) (xs7 : Vec F S10000x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg6 fullShare d) ∗ owns (c : Thread nD τ) arg7 fullShare xs7
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg6 fullShare (s1Of x1 x2)
            ∗ arg7.view.loc (c : Thread nD τ) ↦[arg7.view.set]{fullShare} arg7.view.writes (Elt F) (harg7.unread xs7)
                [⟨Rect.unit (s := S10000x128) (k0_off1 i) S400x128.size (k0_off1_inb i hc2), l1Blk x4 (s1Of x1 x2) x3⟩]) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%d6, %f6, -, H6⟩, ⟨%fs7, %hfs7, HS7⟩, Hk⟩
  obtain rfl := harg1.eq_unread hf1; obtain rfl := harg2.eq_unread hf2; obtain rfl := harg3.eq_unread hf3
  obtain rfl := harg4.eq_unread hf4; obtain rfl := harg7.eq_unread hfs7
  sl_exec (disch := first | exact hc1 | exact hc2 | exact hc3)
  sl_step
  sl_unfold_run_names
  -- what each load reads: the whole inputs and the four column chunks of the adjacency block
  have e1 : View.readAt (Elt F) arg1.view
      (Rect.unit (s := S10000x128) ![0, 0] S10000x128.size inb_S10000x128_S10000x128_0_0).toLoadRect (harg1.unread x1) = xAll x1 := by
    funext j; exact harg1.readAt_unread x1 _ j
  have e2 : View.readAt (Elt F) arg2.view
      (Rect.unit (s := S128x128) ![0, 0] S128x128.size inb_S128x128_S128x128_0_0).toLoadRect (harg2.unread x2) = wAll x2 := by
    funext j; exact harg2.readAt_unread x2 _ j
  have e3 : View.readAt (Elt F) arg3.view
      (Rect.unit (s := S128x128) ![0, 0] S128x128.size inb_S128x128_S128x128_0_0).toLoadRect (harg3.unread x3) = wAll x3 := by
    funext j; exact harg3.readAt_unread x3 _ j
  have e40 : View.readAt (Elt F) arg4.view
      (Rect.unit (s := S400x10000) ![0, 0] S400x2560.size inb_S400x10000_S400x2560_0_0).toLoadRect (harg4.unread x4) = aC0 x4 := by
    funext j; exact harg4.readAt_unread x4 _ j
  have e41 : View.readAt (Elt F) arg4.view
      (Rect.unit (s := S400x10000) ![0, 2560] S400x2560.size inb_S400x10000_S400x2560_0_2560).toLoadRect (harg4.unread x4) = aC1 x4 := by
    funext j; exact harg4.readAt_unread x4 _ j
  have e42 : View.readAt (Elt F) arg4.view
      (Rect.unit (s := S400x10000) ![0, 5120] S400x2560.size inb_S400x10000_S400x2560_0_5120).toLoadRect (harg4.unread x4) = aC2 x4 := by
    funext j; exact harg4.readAt_unread x4 _ j
  have e43 : View.readAt (Elt F) arg4.view
      (Rect.unit (s := S400x10000) ![0, 7680] S400x2320.size inb_S400x10000_S400x2320_0_7680).toLoadRect (harg4.unread x4) = aC3 x4 := by
    funext j; exact harg4.readAt_unread x4 _ j
  simp only [e1, e2, e3, e40, e41, e42, e43]
  -- the four row-chunk loads of the first scratch read back what the prologue has just stored
  rw [readCov_sR0, readCov_sR1, readCov_sR2, readCov_sR3]
  rw [show k0_pay1 (xAll x1) (wAll x2) = s1Of x1 x2 from rfl]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact read_whole_store arg6.view f6 (s1Of x1 x2)
    iexact H6
  iexact HS7

end Cert.KernelIdeal.Body

end
-- ==== Proof.KI.RunB.lean ====
/-
  The body at a point of the first pass after the first (points 1 to 24): it reads the adjacency block and the
  first scratch chunk by chunk and the second weight matrix, and stores one 400-row block into the second scratch
  at the point's row offset. The first scratch, the inputs and the output block are left as found.
-/
import proofs.«152327_g12867722019435_cont_9to1_m_966_9_alg».proof.Proof.KI.Terms
import Idealize.ShloMosaic.Lib.WholeRead

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runB (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S400x10000 .f32) (harg4 : arg4.IsWhole)
    (arg5 : Memref sig .tc .vmem S400x128 .f32) (harg5 : arg5.IsWhole) (arg6 : Memref sig .tc .vmem S10000x128 .bf16) (harg6 : arg6.IsWhole)
    (arg7 : Memref sig .tc .vmem S10000x128 .bf16) (harg7 : arg7.IsWhole)
    (hc1 : ¬cond1 i) (hc2 : cond2 i) (hc3 : ¬cond3 i)
    (x3 : Vec F S128x128 .f32) (x4 : Vec F S400x10000 .f32) (xs6 xs7 : Vec F S10000x128 .bf16) (E : Set ℕ) (K : PUnit → sProp 𝕄) :
    iprop(owns (c : Thread nD τ) arg3 fullShare x3 ∗ owns (c : Thread nD τ) arg4 fullShare x4 ∗ owns (c : Thread nD τ) arg6 fullShare xs6 ∗ owns (c : Thread nD τ) arg7 fullShare xs7
        ∗ (iprop(owns (c : Thread nD τ) arg3 fullShare x3 ∗ owns (c : Thread nD τ) arg4 fullShare x4 ∗ owns (c : Thread nD τ) arg6 fullShare xs6
            ∗ arg7.view.loc (c : Thread nD τ) ↦[arg7.view.set]{fullShare} arg7.view.writes (Elt F) (harg7.unread xs7)
                [⟨Rect.unit (s := S10000x128) (k0_off1 i) S400x128.size (k0_off1_inb i hc2), l1Blk x4 xs6 x3⟩]) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f3, %hf3, H3⟩, ⟨%f4, %hf4, H4⟩, ⟨%f6, %hf6, H6⟩, ⟨%fs7, %hfs7, HS7⟩, Hk⟩
  obtain rfl := harg3.eq_unread hf3; obtain rfl := harg4.eq_unread hf4
  obtain rfl := harg6.eq_unread hf6; obtain rfl := harg7.eq_unread hfs7
  sl_exec (disch := first | exact hc1 | exact hc2 | exact hc3)
  sl_step
  sl_unfold_run_names
  -- what each load reads: the four column chunks of the adjacency block, the four row chunks of the first
  -- scratch, and the second weight matrix whole
  have e3 : View.readAt (Elt F) arg3.view
      (Rect.unit (s := S128x128) ![0, 0] S128x128.size inb_S128x128_S128x128_0_0).toLoadRect (harg3.unread x3) = wAll x3 := by
    funext j; exact harg3.readAt_unread x3 _ j
  have e40 : View.readAt (Elt F) arg4.view
      (Rect.unit (s := S400x10000) ![0, 0] S400x2560.size inb_S400x10000_S400x2560_0_0).toLoadRect (harg4.unread x4) = aC0 x4 := by
    funext j; exact harg4.readAt_unread x4 _ j
  have e41 : View.readAt (Elt F) arg4.view
      (Rect.unit (s := S400x10000) ![0, 2560] S400x2560.size inb_S400x10000_S400x2560_0_2560).toLoadRect (harg4.unread x4) = aC1 x4 := by
    funext j; exact harg4.readAt_unread x4 _ j
  have e42 : View.readAt (Elt F) arg4.view
      (Rect.unit (s := S400x10000) ![0, 5120] S400x2560.size inb_S400x10000_S400x2560_0_5120).toLoadRect (harg4.unread x4) = aC2 x4 := by
    funext j; exact harg4.readAt_unread x4 _ j
  have e43 : View.readAt (Elt F) arg4.view
      (Rect.unit (s := S400x10000) ![0, 7680] S400x2320.size inb_S400x10000_S400x2320_0_7680).toLoadRect (harg4.unread x4) = aC3 x4 := by
    funext j; exact harg4.readAt_unread x4 _ j
  have e60 : View.readAt (Elt F) arg6.view
      (Rect.unit (s := S10000x128) ![0, 0] S2560x128.size inb_S10000x128_S2560x128_0_0).toLoadRect (harg6.unread xs6) = sR0 xs6 := by
    funext j; exact harg6.readAt_unread xs6 _ j
  have e61 : View.readAt (Elt F) arg6.view
      (Rect.unit (s := S10000x128) ![2560, 0] S2560x128.size inb_S10000x128_S2560x128_2560_0).toLoadRect (harg6.unread xs6) = sR1 xs6 := by
    funext j; exact harg6.readAt_unread xs6 _ j
  have e62 : View.readAt (Elt F) arg6.view
      (Rect.unit (s := S10000x128) ![5120, 0] S2560x128.size inb_S10000x128_S2560x128_5120_0).toLoadRect (harg6.unread xs6) = sR2 xs6 := by
    funext j; exact harg6.readAt_unread xs6 _ j
  have e63 : View.readAt (Elt F) arg6.view
      (Rect.unit (s := S10000x128) ![7680, 0] S2320x128.size inb_S10000x128_S2320x128_7680_0).toLoadRect (harg6.unread xs6) = sR3 xs6 := by
    funext j; exact harg6.readAt_unread xs6 _ j
  simp only [e3, e40, e41, e42, e43, e60, e61, e62, e63]
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexact HS7

end Cert.KernelIdeal.Body

end
-- ==== Proof.KI.RunC.lean ====
/-
  The body at a point of the second pass (points 25 to 49): neither the prologue nor the first pass runs; the body
  reads the adjacency block in four column chunks and the second scratch in four row chunks, and stores the sum of
  the four products into the output block. Everything else is left as found.
-/
import proofs.«152327_g12867722019435_cont_9to1_m_966_9_alg».proof.Proof.KI.Terms
import Idealize.ShloMosaic.Lib.WholeRead

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets `![0, 0]` are the zero offsets. -/
private theorem zeros_S400x128 : (![0, 0] : Fin S400x128.rank → ℕ) = fun _ => 0 := by
  funext a; fin_cases a <;> rfl

/-- After one store of `P` through the whole output block, the block reads `P`, whatever it held before. -/
private theorem read_whole_block (v : View sig .tc .vmem S400x128 .f32) (f : v.ty.Contents (Elt F))
    (P : Vec F S400x128 .f32) :
    v.read (Elt F) (v.writes (Elt F) f
      [(⟨Rect.unit (s := S400x128) ![0, 0] S400x128.size inb_S400x128_S400x128_0_0, P⟩ :
        View.Piece (Elt F) S400x128 .f32)]) = P := by
  have hcov : ∀ y : S400x128.Idx, ∃ p ∈ [(⟨Rect.unit (s := S400x128) ![0, 0] S400x128.size inb_S400x128_S400x128_0_0, P⟩ :
        View.Piece (Elt F) S400x128 .f32)], y ∈ p.1.set := fun y =>
    ⟨_, List.mem_singleton_self _, View.mem_set_unit_zero zeros_S400x128 inb_S400x128_S400x128_0_0 y⟩
  rw [View.read_writes_eq_canon v f _ hcov, View.canon_unit_zero zeros_S400x128]

set_option maxHeartbeats 4000000 in
theorem runC (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S400x10000 .f32) (harg4 : arg4.IsWhole)
    (arg5 : Memref sig .tc .vmem S400x128 .f32) (harg5 : arg5.IsWhole) (arg6 : Memref sig .tc .vmem S10000x128 .bf16) (harg6 : arg6.IsWhole)
    (arg7 : Memref sig .tc .vmem S10000x128 .bf16) (harg7 : arg7.IsWhole)
    (hc1 : ¬cond1 i) (hc2 : ¬cond2 i) (hc3 : cond3 i)
    (x4 : Vec F S400x10000 .f32) (xs7 : Vec F S10000x128 .bf16) (E : Set ℕ) (K : PUnit → sProp 𝕄) :
    iprop(owns (c : Thread nD τ) arg4 fullShare x4 ∗ (∃ d, owns (c : Thread nD τ) arg5 fullShare d) ∗ owns (c : Thread nD τ) arg7 fullShare xs7
        ∗ (iprop(owns (c : Thread nD τ) arg4 fullShare x4 ∗ owns (c : Thread nD τ) arg5 fullShare (l2Blk x4 xs7) ∗ owns (c : Thread nD τ) arg7 fullShare xs7) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f4, %hf4, H4⟩, ⟨%d5, %f5, -, H5⟩, ⟨%fs7, %hfs7, HS7⟩, Hk⟩
  obtain rfl := harg4.eq_unread hf4; obtain rfl := harg7.eq_unread hfs7
  sl_exec (disch := first | exact hc1 | exact hc2 | exact hc3)
  sl_step
  sl_unfold_run_names
  -- what each load reads: the four column chunks of the adjacency block, the four row chunks of the second scratch
  have e40 : View.readAt (Elt F) arg4.view
      (Rect.unit (s := S400x10000) ![0, 0] S400x2560.size inb_S400x10000_S400x2560_0_0).toLoadRect (harg4.unread x4) = aC0 x4 := by
    funext j; exact harg4.readAt_unread x4 _ j
  have e41 : View.readAt (Elt F) arg4.view
      (Rect.unit (s := S400x10000) ![0, 2560] S400x2560.size inb_S400x10000_S400x2560_0_2560).toLoadRect (harg4.unread x4) = aC1 x4 := by
    funext j; exact harg4.readAt_unread x4 _ j
  have e42 : View.readAt (Elt F) arg4.view
      (Rect.unit (s := S400x10000) ![0, 5120] S400x2560.size inb_S400x10000_S400x2560_0_5120).toLoadRect (harg4.unread x4) = aC2 x4 := by
    funext j; exact harg4.readAt_unread x4 _ j
  have e43 : View.readAt (Elt F) arg4.view
      (Rect.unit (s := S400x10000) ![0, 7680] S400x2320.size inb_S400x10000_S400x2320_0_7680).toLoadRect (harg4.unread x4) = aC3 x4 := by
    funext j; exact harg4.readAt_unread x4 _ j
  have e70 : View.readAt (Elt F) arg7.view
      (Rect.unit (s := S10000x128) ![0, 0] S2560x128.size inb_S10000x128_S2560x128_0_0).toLoadRect (harg7.unread xs7) = sR0 xs7 := by
    funext j; exact harg7.readAt_unread xs7 _ j
  have e71 : View.readAt (Elt F) arg7.view
      (Rect.unit (s := S10000x128) ![2560, 0] S2560x128.size inb_S10000x128_S2560x128_2560_0).toLoadRect (harg7.unread xs7) = sR1 xs7 := by
    funext j; exact harg7.readAt_unread xs7 _ j
  have e72 : View.readAt (Elt F) arg7.view
      (Rect.unit (s := S10000x128) ![5120, 0] S2560x128.size inb_S10000x128_S2560x128_5120_0).toLoadRect (harg7.unread xs7) = sR2 xs7 := by
    funext j; exact harg7.readAt_unread xs7 _ j
  have e73 : View.readAt (Elt F) arg7.view
      (Rect.unit (s := S10000x128) ![7680, 0] S2320x128.size inb_S10000x128_S2320x128_7680_0).toLoadRect (harg7.unread xs7) = sR3 xs7 := by
    funext j; exact harg7.readAt_unread xs7 _ j
  simp only [e40, e41, e42, e43, e70, e71, e72, e73]
  rw [show k0_pay3 (aC0 x4) (sR0 xs7) (aC1 x4) (sR1 xs7) (aC2 x4) (sR2 xs7) (aC3 x4) (sR3 xs7) = l2Blk x4 xs7 from rfl]
  iapply Hk
  isplitl [H4]
  · iexists _; isplitr; · ipureintro; exact harg4.read_unread _
    iexact H4
  isplitl [H5]
  · iexists _; isplitr; · ipureintro; exact read_whole_block arg5.view f5 (l2Blk x4 xs7)
    iexact H5
  iexists _; isplitr; · ipureintro; exact harg7.read_unread _
  iexact HS7

end Cert.KernelIdeal.Body

end
-- ==== Proof.KI.Frame.lean ====
/-
  The body obligation at every grid point, the launch, and the frame.

  At the first point the body fills the first scratch with S1 and rows 0 to 399 of the second scratch; at points 1 to
  24 it fills the next 400 rows of the second scratch, the first scratch and the inputs left as found and the output
  window untouched; at points 25 to 49 both scratch arrays are left as found and the output window's buffer receives
  the product of the point's adjacency block and S2. The invariant before the first point is the launch's (both
  scratch arrays at anything) and after the last point the scratch contents are forgotten again.
-/
import proofs.«152327_g12867722019435_cont_9to1_m_966_9_alg».proof.Proof.KI.Scratch
import proofs.«152327_g12867722019435_cont_9to1_m_966_9_alg».proof.Proof.KI.RunA
import proofs.«152327_g12867722019435_cont_9to1_m_966_9_alg».proof.Proof.KI.RunB
import proofs.«152327_g12867722019435_cont_9to1_m_966_9_alg».proof.Proof.KI.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point nothing is known of the second scratch, and nothing need be. -/
theorem Inv7.zero (c : Dev nD) (f : Vec F S10000x128 .bf16) : Inv7 m c 0 f := fun y hy => by
  exfalso; simp only [Nat.zero_min, Nat.zero_mul] at hy; exact Nat.not_lt_zero _ hy

set_option maxHeartbeats 4000000 in
/-- A point of the second pass. -/
theorem sound_C (c : Dev nD) (t : Fin cfg0.N) (h25 : 25 ≤ t.val) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) t.isLt from rfl, Phi_succ]
  rw [leaves0, leaves1, leaves2, leaves3, leaves4_live m c t h25]
  rw [Phi_castSucc m c t, Phi_pos m c _ _ (by omega)]
  have hc1 : ¬cond1 (grid0.coords t) := fun h => by have := (hcond1 t).mp h; omega
  have hc2 : ¬cond2 (grid0.coords t) := fun h => by have := (hcond2 t).mp h; omega
  have hc3 : cond3 (grid0.coords t) := (hcond3 t).mpr h25
  iintro ⟨⟨⟨HS6, ⟨%f, %hf, HS7⟩⟩, Hg⟩, Ho, ⟨%d0, H0⟩, ⟨%d1, H1⟩, ⟨%d2, H2⟩, ⟨%d3, H3⟩, ⟨%d4, H4⟩⟩
  obtain rfl := Inv7.eq_S2 m hf h25
  iapply (runC c (grid0.coords t) (ms0 t) (hs0 t) (ms1 t) (hs1 t) (ms2 t) (hs2 t) (ms3 t) (hs3 t) (ms4 t) (hs4 t)
    scM6 (Memref.isWhole_whole _) scM7 (Memref.isWhole_whole _) hc1 hc2 hc3 (b3 m c t) (S2 m c) Set.univ _)
  isplitl [H3]; · iexact H3
  isplitl [H4]; · iexists _; iexact H4
  isplitl [HS7]; · iexact HS7
  iintro ⟨H3, H4, HS7⟩
  isplitl [HS6 HS7 Hg]
  · isplitl [HS6 HS7]
    · isplitl [HS6]; · iexact HS6
      iexists _; isplitr; · ipureintro; exact Inv7.of_eq m c _
      iexact HS7
    iexact Hg
  isplitl [Ho]; · iexact Ho
  isplitl [H0]; · iexact H0
  isplitl [H1]; · iexact H1
  isplitl [H2]; · iexact H2
  isplitl [H3]; · iexact H3
  iexact H4

set_option maxHeartbeats 4000000 in
/-- A point of the first pass after the first. -/
theorem sound_B (c : Dev nD) (t : Fin cfg0.N) (h0 : t.val ≠ 0) (hlt : t.val < 25) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) t.isLt from rfl, Phi_succ]
  rw [leaves0, leaves1, leaves2, leaves3, leaves4_idle m c t hlt]
  rw [Phi_castSucc m c t, Phi_pos m c _ _ h0]
  have hc1 : ¬cond1 (grid0.coords t) := fun h => h0 ((hcond1 t).mp h)
  have hc2 : cond2 (grid0.coords t) := (hcond2 t).mpr hlt
  have hc3 : ¬cond3 (grid0.coords t) := fun h => by have := (hcond3 t).mp h; omega
  iintro ⟨⟨⟨HS6, ⟨%f, %hf, HS7⟩⟩, Hg⟩, Ho, ⟨%d0, H0⟩, ⟨%d1, H1⟩, ⟨%d2, H2⟩, ⟨%d3, H3⟩, H4⟩
  iapply (runB c (grid0.coords t) (ms0 t) (hs0 t) (ms1 t) (hs1 t) (ms2 t) (hs2 t) (ms3 t) (hs3 t) (ms4 t) (hs4 t)
    scM6 (Memref.isWhole_whole _) scM7 (Memref.isWhole_whole _) hc1 hc2 hc3 (b2 m c t) (b3 m c t) (S1 m c) f Set.univ _)
  isplitl [H2]; · iexact H2
  isplitl [H3]; · iexact H3
  isplitl [HS6]; · iexact HS6
  isplitl [HS7]; · iexact HS7
  iintro ⟨H2, H3, HS6, HS7⟩
  isplitl [HS6 HS7 Hg]
  · isplitl [HS6 HS7]
    · isplitl [HS6]; · iexact HS6
      iexists _; isplitr; · ipureintro; exact upd_inv m c t hlt hc2 f hf scM7 (Memref.isWhole_whole _)
      unfold owns; iexists _; isplitr; · ipureintro; rfl
      iexact HS7
    iexact Hg
  isplitl [Ho]; · iexact Ho
  isplitl [H0]; · iexact H0
  isplitl [H1]; · iexact H1
  isplitl [H2]; · iexact H2
  isplitl [H3]; · iexact H3
  iexact H4

set_option maxHeartbeats 4000000 in
/-- The first point. -/
theorem sound_A (c : Dev nD) (t : Fin cfg0.N) (h0 : t.val = 0) :
    bodyPre m c t ⊢ wp frame (wpE (defs₀ (F := F)) Variants.none c none) Set.univ (bodyAt0 t) (fun _ => bodyPost m c t) := by
  have ht : t = t0 := Fin.ext h0
  subst ht
  have hlt : (t0 : Fin cfg0.N).val < 25 := by show 0 < 25; omega
  unfold bodyPre bodyPost bodyAt0
  simp only [before0, before1, before2, before3]
  rw [show (dats m 0 c).owesAt () (t0 : Fin cfg0.N).succ = (dats m 0 c).owesAt () (t0 : Fin cfg0.N).castSucc from rfl]
  rw [show (dats m 0 c).Φ (t0 : Fin cfg0.N).succ = Phi m c ((t0 : Fin cfg0.N).val + 1) (t0 : Fin cfg0.N).isLt from rfl, Phi_succ]
  rw [leaves0, leaves1, leaves2, leaves3, leaves4_idle m c t0 hlt]
  rw [Phi_castSucc m c t0, Phi_zero m c (t0 : Fin cfg0.N).val _ rfl, PhiA_eq]
  have hc1 : cond1 (grid0.coords t0) := (hcond1 t0).mpr rfl
  have hc2 : cond2 (grid0.coords t0) := (hcond2 t0).mpr hlt
  have hc3 : ¬cond3 (grid0.coords t0) := fun h => by have := (hcond3 t0).mp h; omega
  iintro ⟨⟨⟨⟨%d6, HS6⟩, ⟨%xs7, HS7⟩⟩, Hg⟩, Ho, ⟨%d0, H0⟩, ⟨%d1, H1⟩, ⟨%d2, H2⟩, ⟨%d3, H3⟩, H4⟩
  iapply (runA c (grid0.coords t0) (ms0 t0) (hs0 t0) (ms1 t0) (hs1 t0) (ms2 t0) (hs2 t0) (ms3 t0) (hs3 t0) (ms4 t0) (hs4 t0)
    scM6 (Memref.isWhole_whole _) scM7 (Memref.isWhole_whole _) hc1 hc2 hc3 (b0 m c t0) (b1 m c t0) (b2 m c t0) (b3 m c t0) xs7 Set.univ _)
  isplitl [H0]; · iexact H0
  isplitl [H1]; · iexact H1
  isplitl [H2]; · iexact H2
  isplitl [H3]; · iexact H3
  isplitl [HS6]; · iexists _; iexact HS6
  isplitl [HS7]; · iexact HS7
  iintro ⟨H0, H1, H2, H3, HS6, HS7⟩
  isplitl [HS6 HS7 Hg]
  · isplitl [HS6 HS7]
    · isplitl [HS6]; · iexact HS6
      iexists _; isplitr; · ipureintro; exact upd_inv m c t0 hlt hc2 xs7 (Inv7.zero m c xs7) scM7 (Memref.isWhole_whole _)
      unfold owns; iexists _; isplitr; · ipureintro; rfl
      iexact HS7
    iexact Hg
  isplitl [Ho]; · iexact Ho
  isplitl [H0]; · iexact H0
  isplitl [H1]; · iexact H1
  isplitl [H2]; · iexact H2
  isplitl [H3]; · iexact H3
  iexact H4

/-- The body at any point: one of the three cases above. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  · by_cases hlt : t.val < 25
    · exact sound_B m c t h0 hlt
    · exact sound_C m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After any point but the first the invariant gives the launch's back: what the scratch arrays hold is forgotten. -/
theorem Phi_out (c : Dev nD) (t : Fin (cfg0.N + 1)) (ht : t.val ≠ 0) : (dats m 0 c).Φ t ⊢ Pipeline.ΦA spec0 c := by
  rw [show (dats m 0 c).Φ t = Phi m c t.val (Nat.le_of_lt_succ t.isLt) from rfl, Phi_pos m c _ _ ht, PhiA_eq]
  iintro ⟨⟨HS6, ⟨%f, %hf, HS7⟩⟩, Hg⟩
  isplitl [HS6 HS7]
  · isplitl [HS6]
    · iexists _; iexact HS6
    iexists _; iexact HS7
  iexact Hg

theorem hout (c : Dev nD) : (dats m 0 c).Φ (Fin.last cfg0.N) ⊢ Pipeline.ΦA spec0 c :=
  Phi_out m c _ (by rw [Fin.val_last]; have : cfg0.N = 50 := N50; omega)

/-! ## The run and the frame -/

set_option backward.isDefEq.respectTransparency.types false in
/-- Every weakly fair execution of @main terminates, and every final state has every array of the pipeline at what
    the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KB.Terms.lean ====
/-
  The values the kernel body computes at one grid point, as functions of what its buffers hold.

  The adjacency block of a point is 400 rows of the adjacency matrix, all 10000 columns. The body reads it
  in four column chunks (2560, 2560, 2560 and 2320 columns) and reads the matching row chunks of a
  10000 x 128 scratch array; each chunk pair is multiplied and the four products are added. With the
  first scratch (the product of the features and the first weight matrix) the sum is clipped below at zero
  and multiplied by the second weight matrix: that is one 400-row block of the second scratch. With the
  second scratch the sum itself is one 400-row block of the result.
-/
import proofs.«152327_g12867722019435_cont_9to1_m_966_9_alg».proof.Proof.Gen.Kernel.Frame
import proofs.«152327_g12867722019435_cont_9to1_m_966_9_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four column chunks of an adjacency block and the four row chunks of a scratch array -/

/-- Columns 0 to 2559 of a 400 x 10000 block. -/
def aC0 (a : Vec F S400x10000 .f32) : Vec F S400x2560 .f32 :=
  fun x => a ((Rect.unit (s := S400x10000) ![0, 0] S400x2560.size inb_S400x10000_S400x2560_0_0).toLoadRect.idx x)
/-- Columns 2560 to 5119. -/
def aC1 (a : Vec F S400x10000 .f32) : Vec F S400x2560 .f32 :=
  fun x => a ((Rect.unit (s := S400x10000) ![0, 2560] S400x2560.size inb_S400x10000_S400x2560_0_2560).toLoadRect.idx x)
/-- Columns 5120 to 7679. -/
def aC2 (a : Vec F S400x10000 .f32) : Vec F S400x2560 .f32 :=
  fun x => a ((Rect.unit (s := S400x10000) ![0, 5120] S400x2560.size inb_S400x10000_S400x2560_0_5120).toLoadRect.idx x)
/-- Columns 7680 to 9999. -/
def aC3 (a : Vec F S400x10000 .f32) : Vec F S400x2320 .f32 :=
  fun x => a ((Rect.unit (s := S400x10000) ![0, 7680] S400x2320.size inb_S400x10000_S400x2320_0_7680).toLoadRect.idx x)

/-- Rows 0 to 2559 of a 10000 x 128 array. -/
def sR0 (s : Vec F S10000x128 .bf16) : Vec F S2560x128 .bf16 :=
  fun x => s ((Rect.unit (s := S10000x128) ![0, 0] S2560x128.size inb_S10000x128_S2560x128_0_0).toLoadRect.idx x)
/-- Rows 2560 to 5119. -/
def sR1 (s : Vec F S10000x128 .bf16) : Vec F S2560x128 .bf16 :=
  fun x => s ((Rect.unit (s := S10000x128) ![2560, 0] S2560x128.size inb_S10000x128_S2560x128_2560_0).toLoadRect.idx x)
/-- Rows 5120 to 7679. -/
def sR2 (s : Vec F S10000x128 .bf16) : Vec F S2560x128 .bf16 :=
  fun x => s ((Rect.unit (s := S10000x128) ![5120, 0] S2560x128.size inb_S10000x128_S2560x128_5120_0).toLoadRect.idx x)
/-- Rows 7680 to 9999. -/
def sR3 (s : Vec F S10000x128 .bf16) : Vec F S2320x128 .bf16 :=
  fun x => s ((Rect.unit (s := S10000x128) ![7680, 0] S2320x128.size inb_S10000x128_S2320x128_7680_0).toLoadRect.idx x)

/-- A 128 x 128 weight matrix read whole. -/
def wAll (w : Vec F S128x128 .f32) : Vec F S128x128 .f32 :=
  fun x => w ((Rect.unit (s := S128x128) ![0, 0] S128x128.size inb_S128x128_S128x128_0_0).toLoadRect.idx x)
/-- The 10000 x 128 feature matrix read whole. -/
def xAll (x : Vec F S10000x128 .f32) : Vec F S10000x128 .f32 :=
  fun j => x ((Rect.unit (s := S10000x128) ![0, 0] S10000x128.size inb_S10000x128_S10000x128_0_0).toLoadRect.idx j)

/-! ## What the body computes -/

/-- The first scratch: features times the first weight matrix. -/
def s1Of (x : Vec F S10000x128 .f32) (w1 : Vec F S128x128 .f32) : Vec F S10000x128 .bf16 :=
  k0_pay1 (xAll x) (wAll w1)

/-- One 400-row block of the second scratch: the adjacency block times the first scratch, clipped below at zero,
    times the second weight matrix. -/
def l1Blk (a : Vec F S400x10000 .f32) (s : Vec F S10000x128 .bf16) (w2 : Vec F S128x128 .f32) : Vec F S400x128 .bf16 :=
  k0_pay2 (k0_pay4 (aC0 a) (sR0 s) (aC1 a) (sR1 s) (aC2 a) (sR2 s) (aC3 a) (sR3 s) (wAll w2))

/-- One 400-row block of the result: the adjacency block times the second scratch. -/
def l2Blk (a : Vec F S400x10000 .f32) (s : Vec F S10000x128 .bf16) : Vec F S400x128 .f32 :=
  k0_pay3 (aC0 a) (sR0 s) (aC1 a) (sR1 s) (aC2 a) (sR2 s) (aC3 a) (sR3 s)

/-! ## The body's three conditions -/

/-- The first conditional's test: the point is the first of the grid. -/
abbrev cond1 (i : grid0.Coords) : Prop :=
  (Scalar.cmpi .ne (Scalar.extui (Scalar.cmpi .eq (BitVec.ofNat 32 (i 0).val) 0#32)) 0#32) = 1#1
/-- The second conditional's test: the point is one of the first 25. -/
abbrev cond2 (i : grid0.Coords) : Prop := k0_cond2 i = 1#1
/-- The third conditional's test: the point is one of the last 25. -/
abbrev cond3 (i : grid0.Coords) : Prop := k0_cond3 i = 1#1

end Cert.Kernel.Body

end
-- ==== Proof.KB.Sched.lean ====
/-
  The schedule over the 50 grid points, in closed form: which of the body's three conditionals a point takes, the
  row offset of the block a point stores into the second scratch, where the output window is idle and where it is
  written back, and which block of the adjacency matrix and of the result a point works on.
-/
import proofs.«152327_g12867722019435_cont_9to1_m_966_9_alg».proof.Proof.KB.Terms

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The prologue runs at the first point only. -/
theorem hcond1 : ∀ t : Fin cfg0.N, cond1 (grid0.coords t) ↔ t.val = 0 :=
  (by decide +kernel : ∀ t : Fin grid0.N, cond1 (grid0.coords t) ↔ t.val = 0)
/-- The first pass over the adjacency matrix is points 0 to 24. -/
theorem hcond2 : ∀ t : Fin cfg0.N, cond2 (grid0.coords t) ↔ t.val < 25 :=
  (by decide +kernel : ∀ t : Fin grid0.N, cond2 (grid0.coords t) ↔ t.val < 25)
/-- The second pass is points 25 to 49. -/
theorem hcond3 : ∀ t : Fin cfg0.N, cond3 (grid0.coords t) ↔ 25 ≤ t.val :=
  (by decide +kernel : ∀ t : Fin grid0.N, cond3 (grid0.coords t) ↔ 25 ≤ t.val)

/-- In the first pass point t stores rows 400 t to 400 t + 399 of the second scratch. -/
theorem off1_eq : ∀ t : Fin cfg0.N, t.val < 25 → k0_off1 (grid0.coords t) = ![t.val * 400, 0] :=
  (by decide +kernel : ∀ t : Fin grid0.N, t.val < 25 → k0_off1 (grid0.coords t) = ![t.val * 400, 0])

/-- The four input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle through the first pass and is not written back there. -/
theorem idle4 : ∀ t : Fin cfg0.N, t.val < 25 → cfg0.idle 4 (grid0.coords t) = true := by decide +kernel
theorem noflush4 : ∀ t : Fin cfg0.N, t.val < 25 → (cfg0.win 4).flush t = false := by decide +kernel
/-- In the second pass it is stored at every point and written back after every point. -/
theorem live4 : ∀ t : Fin cfg0.N, 25 ≤ t.val → cfg0.idle 4 (grid0.coords t) = false := by decide +kernel
theorem flush4 : ∀ t : Fin cfg0.N, 25 ≤ t.val → (cfg0.win 4).flush t = true := by decide +kernel

/-- Point t works on adjacency rows 400 (t mod 25) onwards. -/
theorem index3 : ∀ t : Fin cfg0.N, (cfg0.win 3).index t = ![t.val % 25, 0] :=
  (by decide +kernel : ∀ t : Fin grid0.N, win0_3.index t = ![t.val % 25, 0])
/-- In the second pass point t writes result rows 400 (t - 25) onwards. -/
theorem index4 : ∀ t : Fin cfg0.N, 25 ≤ t.val → (cfg0.win 4).index t = ![t.val - 25, 0] :=
  (by decide +kernel : ∀ t : Fin grid0.N, 25 ≤ t.val → win0_4.index t = ![t.val - 25, 0])
/-- The three resident windows sit at block 0 throughout. -/
theorem index0 : ∀ t : Fin cfg0.N, (cfg0.win 0).index t = ![0, 0] :=
  (by decide +kernel : ∀ t : Fin grid0.N, win0_0.index t = ![0, 0])
theorem index1 : ∀ t : Fin cfg0.N, (cfg0.win 1).index t = ![0, 0] :=
  (by decide +kernel : ∀ t : Fin grid0.N, win0_1.index t = ![0, 0])
theorem index2 : ∀ t : Fin cfg0.N, (cfg0.win 2).index t = ![0, 0] :=
  (by decide +kernel : ∀ t : Fin grid0.N, win0_2.index t = ![0, 0])

/-- The grid has 50 points. -/
theorem N50 : cfg0.N = 50 := N_0

end Cert.Kernel.Body

end
-- ==== Proof.KB.Data.lean ====
/-
  The proof data of the one pipeline.

  The first scratch holds, from the first point on, the product S1 of the features and the first weight matrix.
  The second scratch is filled 400 rows at a time by the first 25 points: after n of them its rows below 400 n
  hold S2, where row r of S2 is row (r mod 400) of the block the point r / 400 computes from its adjacency block,
  S1 and the second weight matrix; its other rows hold whatever they held. From point 25 on all 10000 rows hold S2,
  and the output block of point t is the product of the point's adjacency block and S2.
  The output window is idle through the first 25 points (nothing is stored into it and it is not written back).
-/
import proofs.«152327_g12867722019435_cont_9to1_m_966_9_alg».proof.Proof.KB.Sched
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The staging memrefs at a point, and the two scratch arrays -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S400x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The first scratch array (S1). -/
abbrev scM6 : Memref sig .tc .vmem S10000x128 .bf16 := Memref.whole cc0_scratch0
/-- The second scratch array (S2). -/
abbrev scM7 : Memref sig .tc .vmem S10000x128 .bf16 := Memref.whole cc0_scratch1

/-- What the launch hands the region: both scratch arrays at some contents, the generator register at some state. -/
theorem PhiA_eq (c : Dev nD) :
    (Pipeline.ΦA spec0 c : sProp 𝕄)
      = iprop(iprop((∃ d, owns (c : Thread nD τ) scM6 fullShare d) ∗ (∃ d, owns (c : Thread nD τ) scM7 fullShare d)) ∗ (∃ r, prngReg c r)) := by
  unfold Pipeline.ΦA; rw [scopedRest0_eq]; simp only [scM6, scM7, owns_whole]; try rfl

/-! ## The input blocks at a point, at their literal types -/

/-- The feature matrix (the window is the whole array at every point). -/
abbrev b0 (c : Dev nD) (t : Fin cfg0.N) : Vec F S10000x128 .f32 := iblk m c 0 t
/-- The first weight matrix. -/
abbrev b1 (c : Dev nD) (t : Fin cfg0.N) : Vec F S128x128 .f32 := iblk m c 1 t
/-- The second weight matrix. -/
abbrev b2 (c : Dev nD) (t : Fin cfg0.N) : Vec F S128x128 .f32 := iblk m c 2 t
/-- The point's 400 rows of the adjacency matrix. -/
abbrev b3 (c : Dev nD) (t : Fin cfg0.N) : Vec F S400x10000 .f32 := iblk m c 3 t

/-- The first grid point. -/
def t0 : Fin cfg0.N := ⟨0, by rw [N50]; omega⟩

/-- S1: the features times the first weight matrix, as the first point computes it. -/
def S1 (c : Dev nD) : Vec F S10000x128 .bf16 := s1Of (b0 m c t0) (b1 m c t0)

/-- The point of the first pass that computes row r: r / 400. -/
def tRow (y : S10000x128.Idx) : Fin cfg0.N :=
  ⟨(y 0).val / 400, by rw [N50]; have h : (y 0).val < 10000 := (y 0).isLt; omega⟩

/-- S2, row by row: row r is row (r mod 400) of the block point r / 400 computes. -/
def S2 (c : Dev nD) : Vec F S10000x128 .bf16 := fun y =>
  l1Blk (b3 m c (tRow y)) (S1 m c) (b2 m c (tRow y))
    (ix2 (⟨(y 0).val % 400, Nat.mod_lt _ (by omega)⟩ : Fin 400) (⟨(y 1).val, (y 1).isLt⟩ : Fin 128))

/-- What is known of the second scratch before point n: its rows below 400 min(n, 25) hold S2. -/
def Inv7 (c : Dev nD) (n : ℕ) (f : Vec F S10000x128 .bf16) : Prop :=
  ∀ y : S10000x128.Idx, (y 0).val < min n 25 * 400 → f y = S2 m c y

/-- From point 25 on the second scratch is S2. -/
theorem Inv7.eq_S2 {c : Dev nD} {n : ℕ} {f : Vec F S10000x128 .bf16} (h : Inv7 m c n f) (hn : 25 ≤ n) : f = S2 m c :=
  funext fun y => h y (by have hy : (y 0).val < 10000 := (y 0).isLt; rw [Nat.min_eq_right hn]; omega)

/-- Once all rows hold S2 they do at every later point. -/
theorem Inv7.of_eq (c : Dev nD) (n : ℕ) : Inv7 m c n (S2 m c) := fun _ _ => rfl

/-! ## The region invariant -/

/-- Before the first point: both scratch arrays at anything. Before point n + 1: the first scratch at S1, the second
    with its rows below 400 min(n + 1, 25) at S2; the generator register at some state throughout. -/
def Phi (c : Dev nD) : (n : ℕ) → n ≤ cfg0.N → sProp 𝕄
  | 0, _ => Pipeline.ΦA spec0 c
  | n + 1, _ => iprop(iprop(owns (c : Thread nD τ) scM6 fullShare (S1 m c)
      ∗ (∃ f, ⌜Inv7 m c (n + 1) f⌝ ∗ owns (c : Thread nD τ) scM7 fullShare f)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n + 1 ≤ cfg0.N) :
    Phi m c (n + 1) hn = iprop(iprop(owns (c : Thread nD τ) scM6 fullShare (S1 m c)
      ∗ (∃ f, ⌜Inv7 m c (n + 1) f⌝ ∗ owns (c : Thread nD τ) scM7 fullShare f)) ∗ (∃ r, prngReg c r)) := rfl

theorem Phi_pos (c : Dev nD) (n : ℕ) (h : n ≤ cfg0.N) (hz : n ≠ 0) :
    Phi m c n h = iprop(iprop(owns (c : Thread nD τ) scM6 fullShare (S1 m c)
      ∗ (∃ f, ⌜Inv7 m c n f⌝ ∗ owns (c : Thread nD τ) scM7 fullShare f)) ∗ (∃ r, prngReg c r)) := by
  cases n with
  | zero => exact absurd rfl hz
  | succ n => rfl

/-! ## The proof data -/

/-- The arrays as the region finds them; after the body each input window holds its block and the output window the
    product of the point's adjacency block and S2 (consulted only at the points that store it); the invariant `Phi`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => l2Blk (b3 m c t) (S2 m c)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = l2Blk (b3 m c t) (S2 m c) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation's two sides, the windows one by one -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- An input window's buffer is left at its block. -/
theorem leaves0 (c : Dev nD) (t : Fin cfg0.N) :
    (dats m 0 c).leavesExact 0 t = owns (c : Thread nD τ) (ms0 t) fullShare (b0 m c t) := by
  rw [show (dats m 0 c).leavesExact 0 t = owns (c : Thread nD τ) (ms0 t) fullShare ((dats m 0 c).after 0 t) from by
    unfold Dat.leavesExact; rw [live0 t], after0]
theorem leaves1 (c : Dev nD) (t : Fin cfg0.N) :
    (dats m 0 c).leavesExact 1 t = owns (c : Thread nD τ) (ms1 t) fullShare (b1 m c t) := by
  rw [show (dats m 0 c).leavesExact 1 t = owns (c : Thread nD τ) (ms1 t) fullShare ((dats m 0 c).after 1 t) from by
    unfold Dat.leavesExact; rw [live1 t], after1]
theorem leaves2 (c : Dev nD) (t : Fin cfg0.N) :
    (dats m 0 c).leavesExact 2 t = owns (c : Thread nD τ) (ms2 t) fullShare (b2 m c t) := by
  rw [show (dats m 0 c).leavesExact 2 t = owns (c : Thread nD τ) (ms2 t) fullShare ((dats m 0 c).after 2 t) from by
    unfold Dat.leavesExact; rw [live2 t], after2]
theorem leaves3 (c : Dev nD) (t : Fin cfg0.N) :
    (dats m 0 c).leavesExact 3 t = owns (c : Thread nD τ) (ms3 t) fullShare (b3 m c t) := by
  rw [show (dats m 0 c).leavesExact 3 t = owns (c : Thread nD τ) (ms3 t) fullShare ((dats m 0 c).after 3 t) from by
    unfold Dat.leavesExact; rw [live3 t], after3]
/-- Through the first pass the output window's buffer is handed back as found. -/
theorem leaves4_idle (c : Dev nD) (t : Fin cfg0.N) (h : t.val < 25) :
    (dats m 0 c).leavesExact 4 t = iprop(∃ d, owns (c : Thread nD τ) (ms4 t) fullShare ((dats m 0 c).before 4 t d)) :=
  Dat.leavesExact_idle (dats m 0 c) 4 t (idle4 t h) (noflush4 t h)
/-- In the second pass it is left at the point's block of the result. -/
theorem leaves4_live (c : Dev nD) (t : Fin cfg0.N) (h : 25 ≤ t.val) :
    (dats m 0 c).leavesExact 4 t = owns (c : Thread nD τ) (ms4 t) fullShare (l2Blk (b3 m c t) (S2 m c)) := by
  rw [show (dats m 0 c).leavesExact 4 t = owns (c : Thread nD τ) (ms4 t) fullShare ((dats m 0 c).after 4 t) from by
    unfold Dat.leavesExact; rw [live4 t h], after4]

end Cert.Kernel.Body

end
-- ==== Proof.KB.Scratch.lean ====
/-
  One step of the first pass on the second scratch: storing the point's 400-row block at rows 400 t onwards, over
  contents whose rows below 400 t already hold S2, leaves contents whose rows below 400 (t + 1) hold S2. A row inside
  the stored block reads the block at (row - 400 t, column), which is S2 there because row / 400 = t; a row outside
  it reads what was there before.
-/
import proofs.«152327_g12867722019435_cont_9to1_m_966_9_alg».proof.Proof.KB.Data
import Idealize.ShloMosaic.Lib.WritesUnit
import Idealize.ShloMosaic.Lib.WholeRead

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The invariant of the second scratch advances by one point of the first pass. -/
theorem upd_inv (c : Dev nD) (t : Fin cfg0.N) (ht : t.val < 25) (hc2 : cond2 (grid0.coords t))
    (xs7 : Vec F S10000x128 .bf16) (hx : Inv7 m c t.val xs7)
    (M : Memref sig .tc .vmem S10000x128 .bf16) (hM : M.IsWhole) :
    Inv7 m c (t.val + 1) (M.view.read (Elt F) (M.view.writes (Elt F) (hM.unread xs7)
      [⟨Rect.unit (s := S10000x128) (k0_off1 (grid0.coords t)) S400x128.size (k0_off1_inb (grid0.coords t) hc2),
        l1Blk (b3 m c t) (S1 m c) (b2 m c t)⟩])) := by
  intro y hy
  have h0 : (y 0).val < 10000 := (y 0).isLt
  have hoff := off1_eq t ht
  by_cases hin : t.val * 400 ≤ (y 0).val
  · -- inside the stored block
    have hlt : (y 0).val < t.val * 400 + 400 := by
      rw [Nat.min_eq_left (by omega)] at hy; omega
    have ht' : tRow y = t := Fin.ext (by show (y 0).val / 400 = t.val; omega)
    refine (View.read_writes_cons_rows_of_mem (v := M.view) (hM.unread xs7) (k0_off1_inb (grid0.coords t) hc2)
      (l1Blk (b3 m c t) (S1 m c) (b2 m c t)) [] y
      (ix2 (⟨(y 0).val % 400, Nat.mod_lt _ (by omega)⟩ : Fin 400) (⟨(y 1).val, (y 1).isLt⟩ : Fin 128)) hoff
      (by show (y 0).val = t.val * 400 + (y 0).val % 400; omega) rfl).trans ?_
    unfold S2
    rw [ht']
  · -- outside it
    have hlt : (y 0).val < t.val * 400 := by omega
    refine (View.read_writes_cons_rows_of_not_mem (v := M.view) (hM.unread xs7) (k0_off1_inb (grid0.coords t) hc2)
      (l1Blk (b3 m c t) (S1 m c) (b2 m c t)) [] y hoff (W := 400) rfl (Or.inl hlt)).trans ?_
    rw [View.writes_nil, hM.read_unread xs7]
    exact hx y (by rw [Nat.min_eq_left (by omega)]; exact hlt)

end Cert.Kernel.Body

end
-- ==== Proof.KB.RunA.lean ====
/-
  The body at the first point: the prologue stores the product of the features and the first weight matrix into
  the first scratch, whole; then the first pass's step reads that scratch back chunk by chunk (what it reads is
  what was just stored) and stores rows 0 to 399 of the second scratch.
-/
import proofs.«152327_g12867722019435_cont_9to1_m_966_9_alg».proof.Proof.KB.Terms
import Idealize.ShloMosaic.Lib.WholeRead

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets `![0, 0]` are the zero offsets. -/
private theorem zeros_S10000x128 : (![0, 0] : Fin S10000x128.rank → ℕ) = fun _ => 0 := by
  funext a; fin_cases a <;> rfl

/-- After one store of `P` through the whole array, a load of any box reads `P` at the box's indices. -/
private theorem readCov_whole_store (v : View sig .tc .vmem S10000x128 .bf16) (P : Vec F S10000x128 .bf16)
    (B : LoadRect S10000x128) :
    v.readCov [(⟨Rect.unit (s := S10000x128) ![0, 0] S10000x128.size inb_S10000x128_S10000x128_0_0, P⟩ :
        View.Piece (Elt F) S10000x128 .bf16)] B = fun j => P (B.idx j) := by
  rw [View.readCov_eq_canon', View.canon_unit_zero zeros_S10000x128]

/-- After one store of `P` through the whole array, the array reads `P`, whatever it held before. -/
private theorem read_whole_store (v : View sig .tc .vmem S10000x128 .bf16) (f : v.ty.Contents (Elt F))
    (P : Vec F S10000x128 .bf16) :
    v.read (Elt F) (v.writes (Elt F) f
      [(⟨Rect.unit (s := S10000x128) ![0, 0] S10000x128.size inb_S10000x128_S10000x128_0_0, P⟩ :
        View.Piece (Elt F) S10000x128 .bf16)]) = P := by
  have hcov : ∀ y : S10000x128.Idx, ∃ p ∈ [(⟨Rect.unit (s := S10000x128) ![0, 0] S10000x128.size inb_S10000x128_S10000x128_0_0, P⟩ :
        View.Piece (Elt F) S10000x128 .bf16)], y ∈ p.1.set := fun y =>
    ⟨_, List.mem_singleton_self _, View.mem_set_unit_zero zeros_S10000x128 inb_S10000x128_S10000x128_0_0 y⟩
  rw [View.read_writes_eq_canon v f _ hcov, View.canon_unit_zero zeros_S10000x128]

/-- After one store of `P` through the whole array, the load of rows 0 to 2559 reads that row chunk of `P`. -/
private theorem readCov_sR0 (v : View sig .tc .vmem S10000x128 .bf16) (P : Vec F S10000x128 .bf16) :
    v.readCov [(⟨Rect.unit (s := S10000x128) ![0, 0] S10000x128.size inb_S10000x128_S10000x128_0_0, P⟩ :
        View.Piece (Elt F) S10000x128 .bf16)]
      (Rect.unit (s := S10000x128) ![0, 0] S2560x128.size inb_S10000x128_S2560x128_0_0).toLoadRect = sR0 P :=
  readCov_whole_store v P _

/-- The same for rows 2560 to 5119. -/
private theorem readCov_sR1 (v : View sig .tc .vmem S10000x128 .bf16) (P : Vec F S10000x128 .bf16) :
    v.readCov [(⟨Rect.unit (s := S10000x128) ![0, 0] S10000x128.size inb_S10000x128_S10000x128_0_0, P⟩ :
        View.Piece (Elt F) S10000x128 .bf16)]
      (Rect.unit (s := S10000x128) ![2560, 0] S2560x128.size inb_S10000x128_S2560x128_2560_0).toLoadRect = sR1 P :=
  readCov_whole_store v P _

/-- The same for rows 5120 to 7679. -/
private theorem readCov_sR2 (v : View sig .tc .vmem S10000x128 .bf16) (P : Vec F S10000x128 .bf16) :
    v.readCov [(⟨Rect.unit (s := S10000x128) ![0, 0] S10000x128.size inb_S10000x128_S10000x128_0_0, P⟩ :
        View.Piece (Elt F) S10000x128 .bf16)]
      (Rect.unit (s := S10000x128) ![5120, 0] S2560x128.size inb_S10000x128_S2560x128_5120_0).toLoadRect = sR2 P :=
  readCov_whole_store v P _

/-- The same for rows 7680 to 9999. -/
private theorem readCov_sR3 (v : View sig .tc .vmem S10000x128 .bf16) (P : Vec F S10000x128 .bf16) :
    v.readCov [(⟨Rect.unit (s := S10000x128) ![0, 0] S10000x128.size inb_S10000x128_S10000x128_0_0, P⟩ :
        View.Piece (Elt F) S10000x128 .bf16)]
      (Rect.unit (s := S10000x128) ![7680, 0] S2320x128.size inb_S10000x128_S2320x128_7680_0).toLoadRect = sR3 P :=
  readCov_whole_store v P _

set_option maxHeartbeats 4000000 in
theorem runA (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S400x10000 .f32) (harg4 : arg4.IsWhole)
    (arg5 : Memref sig .tc .vmem S400x128 .f32) (harg5 : arg5.IsWhole) (arg6 : Memref sig .tc .vmem S10000x128 .bf16) (harg6 : arg6.IsWhole)
    (arg7 : Memref sig .tc .vmem S10000x128 .bf16) (harg7 : arg7.IsWhole)
    (hc1 : cond1 i) (hc2 : cond2 i) (hc3 : ¬cond3 i)
    (x1 : Vec F S10000x128 .f32) (x2 x3 : Vec F S128x128 .f32) (x4 : Vec F S400x10000 .f32) (xs7 : Vec F S10000x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg6 fullShare d) ∗ owns (c : Thread nD τ) arg7 fullShare xs7
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg6 fullShare (s1Of x1 x2)
            ∗ arg7.view.loc (c : Thread nD τ) ↦[arg7.view.set]{fullShare} arg7.view.writes (Elt F) (harg7.unread xs7)
                [⟨Rect.unit (s := S10000x128) (k0_off1 i) S400x128.size (k0_off1_inb i hc2), l1Blk x4 (s1Of x1 x2) x3⟩]) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%d6, %f6, -, H6⟩, ⟨%fs7, %hfs7, HS7⟩, Hk⟩
  obtain rfl := harg1.eq_unread hf1; obtain rfl := harg2.eq_unread hf2; obtain rfl := harg3.eq_unread hf3
  obtain rfl := harg4.eq_unread hf4; obtain rfl := harg7.eq_unread hfs7
  sl_exec (disch := first | exact hc1 | exact hc2 | exact hc3)
  sl_step
  sl_unfold_run_names
  -- what each load reads: the whole inputs and the four column chunks of the adjacency block
  have e1 : View.readAt (Elt F) arg1.view
      (Rect.unit (s := S10000x128) ![0, 0] S10000x128.size inb_S10000x128_S10000x128_0_0).toLoadRect (harg1.unread x1) = xAll x1 := by
    funext j; exact harg1.readAt_unread x1 _ j
  have e2 : View.readAt (Elt F) arg2.view
      (Rect.unit (s := S128x128) ![0, 0] S128x128.size inb_S128x128_S128x128_0_0).toLoadRect (harg2.unread x2) = wAll x2 := by
    funext j; exact harg2.readAt_unread x2 _ j
  have e3 : View.readAt (Elt F) arg3.view
      (Rect.unit (s := S128x128) ![0, 0] S128x128.size inb_S128x128_S128x128_0_0).toLoadRect (harg3.unread x3) = wAll x3 := by
    funext j; exact harg3.readAt_unread x3 _ j
  have e40 : View.readAt (Elt F) arg4.view
      (Rect.unit (s := S400x10000) ![0, 0] S400x2560.size inb_S400x10000_S400x2560_0_0).toLoadRect (harg4.unread x4) = aC0 x4 := by
    funext j; exact harg4.readAt_unread x4 _ j
  have e41 : View.readAt (Elt F) arg4.view
      (Rect.unit (s := S400x10000) ![0, 2560] S400x2560.size inb_S400x10000_S400x2560_0_2560).toLoadRect (harg4.unread x4) = aC1 x4 := by
    funext j; exact harg4.readAt_unread x4 _ j
  have e42 : View.readAt (Elt F) arg4.view
      (Rect.unit (s := S400x10000) ![0, 5120] S400x2560.size inb_S400x10000_S400x2560_0_5120).toLoadRect (harg4.unread x4) = aC2 x4 := by
    funext j; exact harg4.readAt_unread x4 _ j
  have e43 : View.readAt (Elt F) arg4.view
      (Rect.unit (s := S400x10000) ![0, 7680] S400x2320.size inb_S400x10000_S400x2320_0_7680).toLoadRect (harg4.unread x4) = aC3 x4 := by
    funext j; exact harg4.readAt_unread x4 _ j
  simp only [e1, e2, e3, e40, e41, e42, e43]
  -- the four row-chunk loads of the first scratch read back what the prologue has just stored
  rw [readCov_sR0, readCov_sR1, readCov_sR2, readCov_sR3]
  rw [show k0_pay1 (xAll x1) (wAll x2) = s1Of x1 x2 from rfl]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact read_whole_store arg6.view f6 (s1Of x1 x2)
    iexact H6
  iexact HS7

end Cert.Kernel.Body

end
-- ==== Proof.KB.RunB.lean ====
/-
  The body at a point of the first pass after the first (points 1 to 24): it reads the adjacency block and the
  first scratch chunk by chunk and the second weight matrix, and stores one 400-row block into the second scratch
  at the point's row offset. The first scratch, the inputs and the output block are left as found.
-/
import proofs.«152327_g12867722019435_cont_9to1_m_966_9_alg».proof.Proof.KB.Terms
import Idealize.ShloMosaic.Lib.WholeRead

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runB (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S400x10000 .f32) (harg4 : arg4.IsWhole)
    (arg5 : Memref sig .tc .vmem S400x128 .f32) (harg5 : arg5.IsWhole) (arg6 : Memref sig .tc .vmem S10000x128 .bf16) (harg6 : arg6.IsWhole)
    (arg7 : Memref sig .tc .vmem S10000x128 .bf16) (harg7 : arg7.IsWhole)
    (hc1 : ¬cond1 i) (hc2 : cond2 i) (hc3 : ¬cond3 i)
    (x3 : Vec F S128x128 .f32) (x4 : Vec F S400x10000 .f32) (xs6 xs7 : Vec F S10000x128 .bf16) (E : Set ℕ) (K : PUnit → sProp 𝕄) :
    iprop(owns (c : Thread nD τ) arg3 fullShare x3 ∗ owns (c : Thread nD τ) arg4 fullShare x4 ∗ owns (c : Thread nD τ) arg6 fullShare xs6 ∗ owns (c : Thread nD τ) arg7 fullShare xs7
        ∗ (iprop(owns (c : Thread nD τ) arg3 fullShare x3 ∗ owns (c : Thread nD τ) arg4 fullShare x4 ∗ owns (c : Thread nD τ) arg6 fullShare xs6
            ∗ arg7.view.loc (c : Thread nD τ) ↦[arg7.view.set]{fullShare} arg7.view.writes (Elt F) (harg7.unread xs7)
                [⟨Rect.unit (s := S10000x128) (k0_off1 i) S400x128.size (k0_off1_inb i hc2), l1Blk x4 xs6 x3⟩]) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f3, %hf3, H3⟩, ⟨%f4, %hf4, H4⟩, ⟨%f6, %hf6, H6⟩, ⟨%fs7, %hfs7, HS7⟩, Hk⟩
  obtain rfl := harg3.eq_unread hf3; obtain rfl := harg4.eq_unread hf4
  obtain rfl := harg6.eq_unread hf6; obtain rfl := harg7.eq_unread hfs7
  sl_exec (disch := first | exact hc1 | exact hc2 | exact hc3)
  sl_step
  sl_unfold_run_names
  -- what each load reads: the four column chunks of the adjacency block, the four row chunks of the first
  -- scratch, and the second weight matrix whole
  have e3 : View.readAt (Elt F) arg3.view
      (Rect.unit (s := S128x128) ![0, 0] S128x128.size inb_S128x128_S128x128_0_0).toLoadRect (harg3.unread x3) = wAll x3 := by
    funext j; exact harg3.readAt_unread x3 _ j
  have e40 : View.readAt (Elt F) arg4.view
      (Rect.unit (s := S400x10000) ![0, 0] S400x2560.size inb_S400x10000_S400x2560_0_0).toLoadRect (harg4.unread x4) = aC0 x4 := by
    funext j; exact harg4.readAt_unread x4 _ j
  have e41 : View.readAt (Elt F) arg4.view
      (Rect.unit (s := S400x10000) ![0, 2560] S400x2560.size inb_S400x10000_S400x2560_0_2560).toLoadRect (harg4.unread x4) = aC1 x4 := by
    funext j; exact harg4.readAt_unread x4 _ j
  have e42 : View.readAt (Elt F) arg4.view
      (Rect.unit (s := S400x10000) ![0, 5120] S400x2560.size inb_S400x10000_S400x2560_0_5120).toLoadRect (harg4.unread x4) = aC2 x4 := by
    funext j; exact harg4.readAt_unread x4 _ j
  have e43 : View.readAt (Elt F) arg4.view
      (Rect.unit (s := S400x10000) ![0, 7680] S400x2320.size inb_S400x10000_S400x2320_0_7680).toLoadRect (harg4.unread x4) = aC3 x4 := by
    funext j; exact harg4.readAt_unread x4 _ j
  have e60 : View.readAt (Elt F) arg6.view
      (Rect.unit (s := S10000x128) ![0, 0] S2560x128.size inb_S10000x128_S2560x128_0_0).toLoadRect (harg6.unread xs6) = sR0 xs6 := by
    funext j; exact harg6.readAt_unread xs6 _ j
  have e61 : View.readAt (Elt F) arg6.view
      (Rect.unit (s := S10000x128) ![2560, 0] S2560x128.size inb_S10000x128_S2560x128_2560_0).toLoadRect (harg6.unread xs6) = sR1 xs6 := by
    funext j; exact harg6.readAt_unread xs6 _ j
  have e62 : View.readAt (Elt F) arg6.view
      (Rect.unit (s := S10000x128) ![5120, 0] S2560x128.size inb_S10000x128_S2560x128_5120_0).toLoadRect (harg6.unread xs6) = sR2 xs6 := by
    funext j; exact harg6.readAt_unread xs6 _ j
  have e63 : View.readAt (Elt F) arg6.view
      (Rect.unit (s := S10000x128) ![7680, 0] S2320x128.size inb_S10000x128_S2320x128_7680_0).toLoadRect (harg6.unread xs6) = sR3 xs6 := by
    funext j; exact harg6.readAt_unread xs6 _ j
  simp only [e3, e40, e41, e42, e43, e60, e61, e62, e63]
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexact HS7

end Cert.Kernel.Body

end
-- ==== Proof.KB.RunC.lean ====
/-
  The body at a point of the second pass (points 25 to 49): neither the prologue nor the first pass runs; the body
  reads the adjacency block in four column chunks and the second scratch in four row chunks, and stores the sum of
  the four products into the output block. Everything else is left as found.
-/
import proofs.«152327_g12867722019435_cont_9to1_m_966_9_alg».proof.Proof.KB.Terms
import Idealize.ShloMosaic.Lib.WholeRead

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets `![0, 0]` are the zero offsets. -/
private theorem zeros_S400x128 : (![0, 0] : Fin S400x128.rank → ℕ) = fun _ => 0 := by
  funext a; fin_cases a <;> rfl

/-- After one store of `P` through the whole output block, the block reads `P`, whatever it held before. -/
private theorem read_whole_block (v : View sig .tc .vmem S400x128 .f32) (f : v.ty.Contents (Elt F))
    (P : Vec F S400x128 .f32) :
    v.read (Elt F) (v.writes (Elt F) f
      [(⟨Rect.unit (s := S400x128) ![0, 0] S400x128.size inb_S400x128_S400x128_0_0, P⟩ :
        View.Piece (Elt F) S400x128 .f32)]) = P := by
  have hcov : ∀ y : S400x128.Idx, ∃ p ∈ [(⟨Rect.unit (s := S400x128) ![0, 0] S400x128.size inb_S400x128_S400x128_0_0, P⟩ :
        View.Piece (Elt F) S400x128 .f32)], y ∈ p.1.set := fun y =>
    ⟨_, List.mem_singleton_self _, View.mem_set_unit_zero zeros_S400x128 inb_S400x128_S400x128_0_0 y⟩
  rw [View.read_writes_eq_canon v f _ hcov, View.canon_unit_zero zeros_S400x128]

set_option maxHeartbeats 4000000 in
theorem runC (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S400x10000 .f32) (harg4 : arg4.IsWhole)
    (arg5 : Memref sig .tc .vmem S400x128 .f32) (harg5 : arg5.IsWhole) (arg6 : Memref sig .tc .vmem S10000x128 .bf16) (harg6 : arg6.IsWhole)
    (arg7 : Memref sig .tc .vmem S10000x128 .bf16) (harg7 : arg7.IsWhole)
    (hc1 : ¬cond1 i) (hc2 : ¬cond2 i) (hc3 : cond3 i)
    (x4 : Vec F S400x10000 .f32) (xs7 : Vec F S10000x128 .bf16) (E : Set ℕ) (K : PUnit → sProp 𝕄) :
    iprop(owns (c : Thread nD τ) arg4 fullShare x4 ∗ (∃ d, owns (c : Thread nD τ) arg5 fullShare d) ∗ owns (c : Thread nD τ) arg7 fullShare xs7
        ∗ (iprop(owns (c : Thread nD τ) arg4 fullShare x4 ∗ owns (c : Thread nD τ) arg5 fullShare (l2Blk x4 xs7) ∗ owns (c : Thread nD τ) arg7 fullShare xs7) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f4, %hf4, H4⟩, ⟨%d5, %f5, -, H5⟩, ⟨%fs7, %hfs7, HS7⟩, Hk⟩
  obtain rfl := harg4.eq_unread hf4; obtain rfl := harg7.eq_unread hfs7
  sl_exec (disch := first | exact hc1 | exact hc2 | exact hc3)
  sl_step
  sl_unfold_run_names
  -- what each load reads: the four column chunks of the adjacency block, the four row chunks of the second scratch
  have e40 : View.readAt (Elt F) arg4.view
      (Rect.unit (s := S400x10000) ![0, 0] S400x2560.size inb_S400x10000_S400x2560_0_0).toLoadRect (harg4.unread x4) = aC0 x4 := by
    funext j; exact harg4.readAt_unread x4 _ j
  have e41 : View.readAt (Elt F) arg4.view
      (Rect.unit (s := S400x10000) ![0, 2560] S400x2560.size inb_S400x10000_S400x2560_0_2560).toLoadRect (harg4.unread x4) = aC1 x4 := by
    funext j; exact harg4.readAt_unread x4 _ j
  have e42 : View.readAt (Elt F) arg4.view
      (Rect.unit (s := S400x10000) ![0, 5120] S400x2560.size inb_S400x10000_S400x2560_0_5120).toLoadRect (harg4.unread x4) = aC2 x4 := by
    funext j; exact harg4.readAt_unread x4 _ j
  have e43 : View.readAt (Elt F) arg4.view
      (Rect.unit (s := S400x10000) ![0, 7680] S400x2320.size inb_S400x10000_S400x2320_0_7680).toLoadRect (harg4.unread x4) = aC3 x4 := by
    funext j; exact harg4.readAt_unread x4 _ j
  have e70 : View.readAt (Elt F) arg7.view
      (Rect.unit (s := S10000x128) ![0, 0] S2560x128.size inb_S10000x128_S2560x128_0_0).toLoadRect (harg7.unread xs7) = sR0 xs7 := by
    funext j; exact harg7.readAt_unread xs7 _ j
  have e71 : View.readAt (Elt F) arg7.view
      (Rect.unit (s := S10000x128) ![2560, 0] S2560x128.size inb_S10000x128_S2560x128_2560_0).toLoadRect (harg7.unread xs7) = sR1 xs7 := by
    funext j; exact harg7.readAt_unread xs7 _ j
  have e72 : View.readAt (Elt F) arg7.view
      (Rect.unit (s := S10000x128) ![5120, 0] S2560x128.size inb_S10000x128_S2560x128_5120_0).toLoadRect (harg7.unread xs7) = sR2 xs7 := by
    funext j; exact harg7.readAt_unread xs7 _ j
  have e73 : View.readAt (Elt F) arg7.view
      (Rect.unit (s := S10000x128) ![7680, 0] S2320x128.size inb_S10000x128_S2320x128_7680_0).toLoadRect (harg7.unread xs7) = sR3 xs7 := by
    funext j; exact harg7.readAt_unread xs7 _ j
  simp only [e40, e41, e42, e43, e70, e71, e72, e73]
  rw [show k0_pay3 (aC0 x4) (sR0 xs7) (aC1 x4) (sR1 xs7) (aC2 x4) (sR2 xs7) (aC3 x4) (sR3 xs7) = l2Blk x4 xs7 from rfl]
  iapply Hk
  isplitl [H4]
  · iexists _; isplitr; · ipureintro; exact harg4.read_unread _
    iexact H4
  isplitl [H5]
  · iexists _; isplitr; · ipureintro; exact read_whole_block arg5.view f5 (l2Blk x4 xs7)
    iexact H5
  iexists _; isplitr; · ipureintro; exact harg7.read_unread _
  iexact HS7

end Cert.Kernel.Body

end
-- ==== Proof.KB.Frame.lean ====
/-
  The body obligation at every grid point, the launch, and the frame.

  At the first point the body fills the first scratch with S1 and rows 0 to 399 of the second scratch; at points 1 to
  24 it fills the next 400 rows of the second scratch, the first scratch and the inputs left as found and the output
  window untouched; at points 25 to 49 both scratch arrays are left as found and the output window's buffer receives
  the product of the point's adjacency block and S2. The invariant before the first point is the launch's (both
  scratch arrays at anything) and after the last point the scratch contents are forgotten again.
-/
import proofs.«152327_g12867722019435_cont_9to1_m_966_9_alg».proof.Proof.KB.Scratch
import proofs.«152327_g12867722019435_cont_9to1_m_966_9_alg».proof.Proof.KB.RunA
import proofs.«152327_g12867722019435_cont_9to1_m_966_9_alg».proof.Proof.KB.RunB
import proofs.«152327_g12867722019435_cont_9to1_m_966_9_alg».proof.Proof.KB.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point nothing is known of the second scratch, and nothing need be. -/
theorem Inv7.zero (c : Dev nD) (f : Vec F S10000x128 .bf16) : Inv7 m c 0 f := fun y hy => by
  exfalso; simp only [Nat.zero_min, Nat.zero_mul] at hy; exact Nat.not_lt_zero _ hy

set_option maxHeartbeats 4000000 in
/-- A point of the second pass. -/
theorem sound_C (c : Dev nD) (t : Fin cfg0.N) (h25 : 25 ≤ t.val) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) t.isLt from rfl, Phi_succ]
  rw [leaves0, leaves1, leaves2, leaves3, leaves4_live m c t h25]
  rw [Phi_castSucc m c t, Phi_pos m c _ _ (by omega)]
  have hc1 : ¬cond1 (grid0.coords t) := fun h => by have := (hcond1 t).mp h; omega
  have hc2 : ¬cond2 (grid0.coords t) := fun h => by have := (hcond2 t).mp h; omega
  have hc3 : cond3 (grid0.coords t) := (hcond3 t).mpr h25
  iintro ⟨⟨⟨HS6, ⟨%f, %hf, HS7⟩⟩, Hg⟩, Ho, ⟨%d0, H0⟩, ⟨%d1, H1⟩, ⟨%d2, H2⟩, ⟨%d3, H3⟩, ⟨%d4, H4⟩⟩
  obtain rfl := Inv7.eq_S2 m hf h25
  iapply (runC c (grid0.coords t) (ms0 t) (hs0 t) (ms1 t) (hs1 t) (ms2 t) (hs2 t) (ms3 t) (hs3 t) (ms4 t) (hs4 t)
    scM6 (Memref.isWhole_whole _) scM7 (Memref.isWhole_whole _) hc1 hc2 hc3 (b3 m c t) (S2 m c) Set.univ _)
  isplitl [H3]; · iexact H3
  isplitl [H4]; · iexists _; iexact H4
  isplitl [HS7]; · iexact HS7
  iintro ⟨H3, H4, HS7⟩
  isplitl [HS6 HS7 Hg]
  · isplitl [HS6 HS7]
    · isplitl [HS6]; · iexact HS6
      iexists _; isplitr; · ipureintro; exact Inv7.of_eq m c _
      iexact HS7
    iexact Hg
  isplitl [Ho]; · iexact Ho
  isplitl [H0]; · iexact H0
  isplitl [H1]; · iexact H1
  isplitl [H2]; · iexact H2
  isplitl [H3]; · iexact H3
  iexact H4

set_option maxHeartbeats 4000000 in
/-- A point of the first pass after the first. -/
theorem sound_B (c : Dev nD) (t : Fin cfg0.N) (h0 : t.val ≠ 0) (hlt : t.val < 25) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) t.isLt from rfl, Phi_succ]
  rw [leaves0, leaves1, leaves2, leaves3, leaves4_idle m c t hlt]
  rw [Phi_castSucc m c t, Phi_pos m c _ _ h0]
  have hc1 : ¬cond1 (grid0.coords t) := fun h => h0 ((hcond1 t).mp h)
  have hc2 : cond2 (grid0.coords t) := (hcond2 t).mpr hlt
  have hc3 : ¬cond3 (grid0.coords t) := fun h => by have := (hcond3 t).mp h; omega
  iintro ⟨⟨⟨HS6, ⟨%f, %hf, HS7⟩⟩, Hg⟩, Ho, ⟨%d0, H0⟩, ⟨%d1, H1⟩, ⟨%d2, H2⟩, ⟨%d3, H3⟩, H4⟩
  iapply (runB c (grid0.coords t) (ms0 t) (hs0 t) (ms1 t) (hs1 t) (ms2 t) (hs2 t) (ms3 t) (hs3 t) (ms4 t) (hs4 t)
    scM6 (Memref.isWhole_whole _) scM7 (Memref.isWhole_whole _) hc1 hc2 hc3 (b2 m c t) (b3 m c t) (S1 m c) f Set.univ _)
  isplitl [H2]; · iexact H2
  isplitl [H3]; · iexact H3
  isplitl [HS6]; · iexact HS6
  isplitl [HS7]; · iexact HS7
  iintro ⟨H2, H3, HS6, HS7⟩
  isplitl [HS6 HS7 Hg]
  · isplitl [HS6 HS7]
    · isplitl [HS6]; · iexact HS6
      iexists _; isplitr; · ipureintro; exact upd_inv m c t hlt hc2 f hf scM7 (Memref.isWhole_whole _)
      unfold owns; iexists _; isplitr; · ipureintro; rfl
      iexact HS7
    iexact Hg
  isplitl [Ho]; · iexact Ho
  isplitl [H0]; · iexact H0
  isplitl [H1]; · iexact H1
  isplitl [H2]; · iexact H2
  isplitl [H3]; · iexact H3
  iexact H4

set_option maxHeartbeats 4000000 in
/-- The first point. -/
theorem sound_A (c : Dev nD) (t : Fin cfg0.N) (h0 : t.val = 0) :
    bodyPre m c t ⊢ wp frame (wpE (defs₀ (F := F)) Variants.none c none) Set.univ (bodyAt0 t) (fun _ => bodyPost m c t) := by
  have ht : t = t0 := Fin.ext h0
  subst ht
  have hlt : (t0 : Fin cfg0.N).val < 25 := by show 0 < 25; omega
  unfold bodyPre bodyPost bodyAt0
  simp only [before0, before1, before2, before3]
  rw [show (dats m 0 c).owesAt () (t0 : Fin cfg0.N).succ = (dats m 0 c).owesAt () (t0 : Fin cfg0.N).castSucc from rfl]
  rw [show (dats m 0 c).Φ (t0 : Fin cfg0.N).succ = Phi m c ((t0 : Fin cfg0.N).val + 1) (t0 : Fin cfg0.N).isLt from rfl, Phi_succ]
  rw [leaves0, leaves1, leaves2, leaves3, leaves4_idle m c t0 hlt]
  rw [Phi_castSucc m c t0, Phi_zero m c (t0 : Fin cfg0.N).val _ rfl, PhiA_eq]
  have hc1 : cond1 (grid0.coords t0) := (hcond1 t0).mpr rfl
  have hc2 : cond2 (grid0.coords t0) := (hcond2 t0).mpr hlt
  have hc3 : ¬cond3 (grid0.coords t0) := fun h => by have := (hcond3 t0).mp h; omega
  iintro ⟨⟨⟨⟨%d6, HS6⟩, ⟨%xs7, HS7⟩⟩, Hg⟩, Ho, ⟨%d0, H0⟩, ⟨%d1, H1⟩, ⟨%d2, H2⟩, ⟨%d3, H3⟩, H4⟩
  iapply (runA c (grid0.coords t0) (ms0 t0) (hs0 t0) (ms1 t0) (hs1 t0) (ms2 t0) (hs2 t0) (ms3 t0) (hs3 t0) (ms4 t0) (hs4 t0)
    scM6 (Memref.isWhole_whole _) scM7 (Memref.isWhole_whole _) hc1 hc2 hc3 (b0 m c t0) (b1 m c t0) (b2 m c t0) (b3 m c t0) xs7 Set.univ _)
  isplitl [H0]; · iexact H0
  isplitl [H1]; · iexact H1
  isplitl [H2]; · iexact H2
  isplitl [H3]; · iexact H3
  isplitl [HS6]; · iexists _; iexact HS6
  isplitl [HS7]; · iexact HS7
  iintro ⟨H0, H1, H2, H3, HS6, HS7⟩
  isplitl [HS6 HS7 Hg]
  · isplitl [HS6 HS7]
    · isplitl [HS6]; · iexact HS6
      iexists _; isplitr; · ipureintro; exact upd_inv m c t0 hlt hc2 xs7 (Inv7.zero m c xs7) scM7 (Memref.isWhole_whole _)
      unfold owns; iexists _; isplitr; · ipureintro; rfl
      iexact HS7
    iexact Hg
  isplitl [Ho]; · iexact Ho
  isplitl [H0]; · iexact H0
  isplitl [H1]; · iexact H1
  isplitl [H2]; · iexact H2
  isplitl [H3]; · iexact H3
  iexact H4

/-- The body at any point: one of the three cases above. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  · by_cases hlt : t.val < 25
    · exact sound_B m c t h0 hlt
    · exact sound_C m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After any point but the first the invariant gives the launch's back: what the scratch arrays hold is forgotten. -/
theorem Phi_out (c : Dev nD) (t : Fin (cfg0.N + 1)) (ht : t.val ≠ 0) : (dats m 0 c).Φ t ⊢ Pipeline.ΦA spec0 c := by
  rw [show (dats m 0 c).Φ t = Phi m c t.val (Nat.le_of_lt_succ t.isLt) from rfl, Phi_pos m c _ _ ht, PhiA_eq]
  iintro ⟨⟨HS6, ⟨%f, %hf, HS7⟩⟩, Hg⟩
  isplitl [HS6 HS7]
  · isplitl [HS6]
    · iexists _; iexact HS6
    iexists _; iexact HS7
  iexact Hg

theorem hout (c : Dev nD) : (dats m 0 c).Φ (Fin.last cfg0.N) ⊢ Pipeline.ΦA spec0 c :=
  Phi_out m c _ (by rw [Fin.val_last]; have : cfg0.N = 50 := N50; omega)

/-! ## The run and the frame -/

set_option backward.isDefEq.respectTransparency.types false in
/-- Every weakly fair execution of @main terminates, and every final state has every array of the pipeline at what
    the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Val.Spec.lean ====
/-
  The two-layer graph convolution as plain matrix algebra over the extended reals:
  out = adj * (relu (adj * (x * w1)) * w2), every product a finite sum of entrywise products.
  Also: a sum over 10000 columns cut at 2560, 5120 and 7680 is the sum of its four parts.
-/
import Idealize.ShloMosaic.Lib.ValueIdx
import Mathlib.Data.EReal.Basic
import Mathlib.Algebra.BigOperators.Fin

open scoped BigOperators

noncomputable section

namespace Cert.Spec

open Idealize.ShloMosaic Idealize.ShloMosaic.ValueIdx

/-- An a x b matrix of extended reals, indexed as a rank-2 array. -/
abbrev Mat (a b : ℕ) : Type := (⟨2, ![a, b]⟩ : Shape).Idx → EReal

/-- The matrix product: entry (p, q) is the sum over k of l(p, k) r(k, q). -/
def mm {M K N : ℕ} (l : Mat M K) (r : Mat K N) : Mat M N :=
  fun j => ∑ k : Fin K, l (ix2 (j 0) k) * r (ix2 k (j 1))

/-- Clipping below at zero, entry by entry. -/
def relu {M N : ℕ} (h : Mat M N) : Mat M N := fun j => max (h j) 0

/-- The two-layer graph convolution. -/
def gcn (x : Mat 10000 128) (adj : Mat 10000 10000) (w1 w2 : Mat 128 128) : Mat 10000 128 :=
  mm adj (mm (relu (mm adj (mm x w1))) w2)

theorem mm_apply {M K N : ℕ} (l : Mat M K) (r : Mat K N) (p : Fin M) (q : Fin N) :
    mm l r (ix2 p q) = ∑ k : Fin K, l (ix2 p k) * r (ix2 k q) := rfl

theorem relu_apply {M N : ℕ} (h : Mat M N) (j : (⟨2, ![M, N]⟩ : Shape).Idx) : relu h j = max (h j) 0 := rfl

/-- A sum over 10000 terms is the sum of its four consecutive parts of 2560, 2560, 2560 and 2320 terms. -/
theorem sum_split4 (f : Fin 10000 → EReal) :
    ∑ k : Fin 10000, f k
      = ((∑ k : Fin 2560, f ⟨k.val, by omega⟩ + ∑ k : Fin 2560, f ⟨2560 + k.val, by omega⟩)
          + ∑ k : Fin 2560, f ⟨5120 + k.val, by omega⟩) + ∑ k : Fin 2320, f ⟨7680 + k.val, by omega⟩ := by
  -- 10000 = 7680 + 2320: the first 7680 terms and the last 2320
  have e1 : ∑ k : Fin 10000, f k
      = ∑ k : Fin 7680, f ⟨k.val, by omega⟩ + ∑ k : Fin 2320, f ⟨7680 + k.val, by omega⟩ :=
    Fin.sum_univ_add (a := 7680) (b := 2320) f
  -- 7680 = 5120 + 2560
  have e2 : ∑ k : Fin 7680, f ⟨k.val, by omega⟩
      = ∑ k : Fin 5120, f ⟨k.val, by omega⟩ + ∑ k : Fin 2560, f ⟨5120 + k.val, by omega⟩ :=
    Fin.sum_univ_add (a := 5120) (b := 2560) (fun k : Fin 7680 => f ⟨k.val, by omega⟩)
  -- 5120 = 2560 + 2560
  have e3 : ∑ k : Fin 5120, f ⟨k.val, by omega⟩
      = ∑ k : Fin 2560, f ⟨k.val, by omega⟩ + ∑ k : Fin 2560, f ⟨2560 + k.val, by omega⟩ :=
    Fin.sum_univ_add (a := 2560) (b := 2560) (fun k : Fin 5120 => f ⟨k.val, by omega⟩)
  rw [e1, e2, e3]

end Cert.Spec

end
-- ==== Proof.Val.Payload.lean ====
/-
  The body's three values read entry by entry at the ideal instance, where a change of float format is the
  identity and a matrix product into a zero accumulator is a finite sum of products.
  The four chunk products added together are one sum over all 10000 columns.
-/
import proofs.«152327_g12867722019435_cont_9to1_m_966_9_alg».proof.Proof.KI.Terms
import proofs.«152327_g12867722019435_cont_9to1_m_966_9_alg».proof.Proof.LibPlainDot
import proofs.«152327_g12867722019435_cont_9to1_m_966_9_alg».proof.Proof.Val.Spec
import Idealize.ShloMosaic.PureOps.Ideal.Laws
import Idealize.ShloMosaic.Lib.ValueIdx
import Idealize.ShloMosaic.Lib.Pipeline.Value

set_option maxRecDepth 16384

open scoped BigOperators

noncomputable section

namespace Cert.KernelIdeal.Body

open Cert.KernelIdeal Cert.KernelIdeal.Gen
open Idealize.ShloMosaic Idealize.ShloMosaic.ValueIdx

/-! ## The chunk readers at an entry: a chunk's entry (p, k) is the whole array's entry shifted by the chunk's offset -/

/-- Columns 0 to 2559 of the block: entry (p, k) is the block's entry (p, k). -/
private theorem aC0_apply (a : FVec Ideal S400x10000 .f32) (p : Fin 400) (k : Fin 2560) :
    aC0 (F := Ideal) a (ix2 p k) = a (ix2 p ⟨k.val, by omega⟩) := by
  unfold aC0
  refine congrArg a ?_
  funext d
  match d with
  | ⟨0, _⟩ => exact Fin.ext (show 0 + 1 * p.val = p.val by omega)
  | ⟨1, _⟩ => exact Fin.ext (show 0 + 1 * k.val = k.val by omega)

/-- Columns 2560 to 5119 of the block: entry (p, k) is the block's entry (p, 2560 + k). -/
private theorem aC1_apply (a : FVec Ideal S400x10000 .f32) (p : Fin 400) (k : Fin 2560) :
    aC1 (F := Ideal) a (ix2 p k) = a (ix2 p ⟨2560 + k.val, by omega⟩) := by
  unfold aC1
  refine congrArg a ?_
  funext d
  match d with
  | ⟨0, _⟩ => exact Fin.ext (show 0 + 1 * p.val = p.val by omega)
  | ⟨1, _⟩ => exact Fin.ext (show 2560 + 1 * k.val = 2560 + k.val by omega)

/-- Columns 5120 to 7679 of the block: entry (p, k) is the block's entry (p, 5120 + k). -/
private theorem aC2_apply (a : FVec Ideal S400x10000 .f32) (p : Fin 400) (k : Fin 2560) :
    aC2 (F := Ideal) a (ix2 p k) = a (ix2 p ⟨5120 + k.val, by omega⟩) := by
  unfold aC2
  refine congrArg a ?_
  funext d
  match d with
  | ⟨0, _⟩ => exact Fin.ext (show 0 + 1 * p.val = p.val by omega)
  | ⟨1, _⟩ => exact Fin.ext (show 5120 + 1 * k.val = 5120 + k.val by omega)

/-- Columns 7680 to 9999 of the block: entry (p, k) is the block's entry (p, 7680 + k). -/
private theorem aC3_apply (a : FVec Ideal S400x10000 .f32) (p : Fin 400) (k : Fin 2320) :
    aC3 (F := Ideal) a (ix2 p k) = a (ix2 p ⟨7680 + k.val, by omega⟩) := by
  unfold aC3
  refine congrArg a ?_
  funext d
  match d with
  | ⟨0, _⟩ => exact Fin.ext (show 0 + 1 * p.val = p.val by omega)
  | ⟨1, _⟩ => exact Fin.ext (show 7680 + 1 * k.val = 7680 + k.val by omega)

/-- Rows 0 to 2559 of the scratch: entry (k, q) is the scratch's entry (k, q). -/
private theorem sR0_apply (s : FVec Ideal S10000x128 .bf16) (k : Fin 2560) (q : Fin 128) :
    sR0 (F := Ideal) s (ix2 k q) = s (ix2 ⟨k.val, by omega⟩ q) := by
  unfold sR0
  refine congrArg s ?_
  funext d
  match d with
  | ⟨0, _⟩ => exact Fin.ext (show 0 + 1 * k.val = k.val by omega)
  | ⟨1, _⟩ => exact Fin.ext (show 0 + 1 * q.val = q.val by omega)

/-- Rows 2560 to 5119 of the scratch: entry (k, q) is the scratch's entry (2560 + k, q). -/
private theorem sR1_apply (s : FVec Ideal S10000x128 .bf16) (k : Fin 2560) (q : Fin 128) :
    sR1 (F := Ideal) s (ix2 k q) = s (ix2 ⟨2560 + k.val, by omega⟩ q) := by
  unfold sR1
  refine congrArg s ?_
  funext d
  match d with
  | ⟨0, _⟩ => exact Fin.ext (show 2560 + 1 * k.val = 2560 + k.val by omega)
  | ⟨1, _⟩ => exact Fin.ext (show 0 + 1 * q.val = q.val by omega)

/-- Rows 5120 to 7679 of the scratch: entry (k, q) is the scratch's entry (5120 + k, q). -/
private theorem sR2_apply (s : FVec Ideal S10000x128 .bf16) (k : Fin 2560) (q : Fin 128) :
    sR2 (F := Ideal) s (ix2 k q) = s (ix2 ⟨5120 + k.val, by omega⟩ q) := by
  unfold sR2
  refine congrArg s ?_
  funext d
  match d with
  | ⟨0, _⟩ => exact Fin.ext (show 5120 + 1 * k.val = 5120 + k.val by omega)
  | ⟨1, _⟩ => exact Fin.ext (show 0 + 1 * q.val = q.val by omega)

/-- Rows 7680 to 9999 of the scratch: entry (k, q) is the scratch's entry (7680 + k, q). -/
private theorem sR3_apply (s : FVec Ideal S10000x128 .bf16) (k : Fin 2320) (q : Fin 128) :
    sR3 (F := Ideal) s (ix2 k q) = s (ix2 ⟨7680 + k.val, by omega⟩ q) := by
  unfold sR3
  refine congrArg s ?_
  funext d
  match d with
  | ⟨0, _⟩ => exact Fin.ext (show 7680 + 1 * k.val = 7680 + k.val by omega)
  | ⟨1, _⟩ => exact Fin.ext (show 0 + 1 * q.val = q.val by omega)

/-- A weight matrix read whole is itself. -/
private theorem wAll_apply (w : FVec Ideal S128x128 .f32) (k : Fin 128) (q : Fin 128) :
    wAll (F := Ideal) w (ix2 k q) = w (ix2 k q) := by
  unfold wAll
  refine congrArg w ?_
  funext d
  match d with
  | ⟨0, _⟩ => exact Fin.ext (show 0 + 1 * k.val = k.val by omega)
  | ⟨1, _⟩ => exact Fin.ext (show 0 + 1 * q.val = q.val by omega)

/-- The feature matrix read whole is itself. -/
private theorem xAll_apply (x : FVec Ideal S10000x128 .f32) (p : Fin 10000) (k : Fin 128) :
    xAll (F := Ideal) x (ix2 p k) = x (ix2 p k) := by
  unfold xAll
  refine congrArg x ?_
  funext d
  match d with
  | ⟨0, _⟩ => exact Fin.ext (show 0 + 1 * p.val = p.val by omega)
  | ⟨1, _⟩ => exact Fin.ext (show 0 + 1 * k.val = k.val by omega)

/-! ## A chunk product at an entry -/

/-- The zero scalar the clip broadcasts is the extended real 0. -/
private theorem zero_scalar : (Scalar.ofBits .f32 0x00000000#32 : Ideal .f32) = 0 := Ideal.ofBits_zero_f32

/-- A product of a narrowed left operand with a right operand into the zero accumulator, at entry (p, q): the sum
    over k of l(p, k) r(k, q). -/
private theorem prod_apply {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : FVec Ideal ⟨2, ![M, K]⟩ .f32) (r : FVec Ideal ⟨2, ![K, N]⟩ .bf16) (p : Fin M) (q : Fin N) :
    matmul d none (truncf .bf16 l bitsLt_bf16_f32) r (constant (F := Ideal) ⟨2, ![M, N]⟩ .f32 0x00000000#32) (ix2 p q)
      = ∑ k : Fin K, l (ix2 p k) * r (ix2 k q) :=
  Cert.Lib.PlainDot.matmul_zero_apply d hlc hrc hln hrn hlb hrb none (truncf .bf16 l bitsLt_bf16_f32) r p q

/-- The four chunk products added, at (p, q): the one sum over all 10000 columns of a(p, k) s(k, q). -/
private theorem l2Blk_entry (a : FVec Ideal S400x10000 .f32) (s : FVec Ideal S10000x128 .bf16) (p : Fin 400) (q : Fin 128) :
    (l2Blk (F := Ideal) a s : FVec Ideal S400x128 .f32) (ix2 p q) = ∑ k : Fin 10000, a (ix2 p k) * s (ix2 k q) := by
  unfold l2Blk k0_pay3
  -- the four chunk products, added
  show ((matmul dot_S400x2560_S2560x128_S400x128_1_0_0_1_n_n none (truncf .bf16 (aC0 (F := Ideal) a) bitsLt_bf16_f32) (sR0 s)
            (constant (F := Ideal) S400x128 .f32 0x00000000#32) (ix2 p q)
        + matmul dot_S400x2560_S2560x128_S400x128_1_0_0_1_n_n none (truncf .bf16 (aC1 (F := Ideal) a) bitsLt_bf16_f32) (sR1 s)
            (constant (F := Ideal) S400x128 .f32 0x00000000#32) (ix2 p q))
        + matmul dot_S400x2560_S2560x128_S400x128_1_0_0_1_n_n none (truncf .bf16 (aC2 (F := Ideal) a) bitsLt_bf16_f32) (sR2 s)
            (constant (F := Ideal) S400x128 .f32 0x00000000#32) (ix2 p q))
        + matmul dot_S400x2320_S2320x128_S400x128_1_0_0_1_n_n none (truncf .bf16 (aC3 (F := Ideal) a) bitsLt_bf16_f32) (sR3 s)
            (constant (F := Ideal) S400x128 .f32 0x00000000#32) (ix2 p q) = _
  rw [prod_apply dot_S400x2560_S2560x128_S400x128_1_0_0_1_n_n rfl rfl rfl rfl rfl rfl (aC0 (F := Ideal) a) (sR0 (F := Ideal) s) p q,
    prod_apply dot_S400x2560_S2560x128_S400x128_1_0_0_1_n_n rfl rfl rfl rfl rfl rfl (aC1 (F := Ideal) a) (sR1 (F := Ideal) s) p q,
    prod_apply dot_S400x2560_S2560x128_S400x128_1_0_0_1_n_n rfl rfl rfl rfl rfl rfl (aC2 (F := Ideal) a) (sR2 (F := Ideal) s) p q,
    prod_apply dot_S400x2320_S2320x128_S400x128_1_0_0_1_n_n rfl rfl rfl rfl rfl rfl (aC3 (F := Ideal) a) (sR3 (F := Ideal) s) p q]
  rw [Cert.Spec.sum_split4 (fun k => a (ix2 p k) * s (ix2 k q))]
  simp only [aC0_apply, aC1_apply, aC2_apply, aC3_apply, sR0_apply, sR1_apply, sR2_apply, sR3_apply]

/-! ## The three values at an entry -/

/-- The first scratch at (p, q): the sum over k of x(p, k) w1(k, q). -/
theorem s1Of_apply (x : FVec Ideal S10000x128 .f32) (w1 : FVec Ideal S128x128 .f32) (p : Fin 10000) (q : Fin 128) :
    (s1Of (F := Ideal) x w1 : FVec Ideal S10000x128 .bf16) (ix2 p q) = ∑ k : Fin 128, x (ix2 p k) * w1 (ix2 k q) := by
  unfold s1Of k0_pay1
  rw [shapeCast_self]
  -- the narrowings are the identity; what is left is the product of the two matrices read whole
  refine (Cert.Lib.PlainDot.matmul_zero_apply dot_S10000x128_S128x128_S10000x128_1_0_0_1_n_n rfl rfl rfl rfl rfl rfl none
    (truncf .bf16 (xAll (F := Ideal) x) bitsLt_bf16_f32) (truncf .bf16 (wAll (F := Ideal) w1) bitsLt_bf16_f32) p q).trans ?_
  refine Finset.sum_congr rfl fun k _ => ?_
  show xAll (F := Ideal) x (ix2 p k) * wAll (F := Ideal) w1 (ix2 k q) = _
  rw [xAll_apply, wAll_apply]

/-- A block of the second scratch at (p, q): the sum over j of max(sum over k of a(p, k) s(k, j), 0) w2(j, q). -/
theorem l1Blk_apply (a : FVec Ideal S400x10000 .f32) (s : FVec Ideal S10000x128 .bf16) (w2 : FVec Ideal S128x128 .f32)
    (p : Fin 400) (q : Fin 128) :
    (l1Blk (F := Ideal) a s w2 : FVec Ideal S400x128 .bf16) (ix2 p q)
      = ∑ j : Fin 128, max (∑ k : Fin 10000, a (ix2 p k) * s (ix2 k j)) 0 * w2 (ix2 j q) := by
  unfold l1Blk k0_pay2
  rw [shapeCast_self]
  -- the clipped chunk total, narrowed, times the second weight matrix, narrowed
  show matmul dot_S400x128_S128x128_S400x128_1_0_0_1_n_n none
      (truncf .bf16 (maximumf (l2Blk (F := Ideal) a s) (broadcast S400x128 (Scalar.ofBits .f32 0x00000000#32 : Ideal .f32)))
        bitsLt_bf16_f32)
      (truncf .bf16 (wAll (F := Ideal) w2) bitsLt_bf16_f32) (constant (F := Ideal) S400x128 .f32 0x00000000#32) (ix2 p q) = _
  refine (Cert.Lib.PlainDot.matmul_zero_apply dot_S400x128_S128x128_S400x128_1_0_0_1_n_n rfl rfl rfl rfl rfl rfl none
    _ _ p q).trans ?_
  refine Finset.sum_congr rfl fun j _ => ?_
  show max (l2Blk (F := Ideal) a s (ix2 p j)) (Scalar.ofBits .f32 0x00000000#32 : Ideal .f32)
      * wAll (F := Ideal) w2 (ix2 j q) = _
  rw [l2Blk_entry, wAll_apply, zero_scalar]

/-- A block of the result at (p, q): the sum over k of a(p, k) s(k, q). -/
theorem l2Blk_apply (a : FVec Ideal S400x10000 .f32) (s : FVec Ideal S10000x128 .bf16) (p : Fin 400) (q : Fin 128) :
    (l2Blk (F := Ideal) a s : FVec Ideal S400x128 .f32) (ix2 p q) = ∑ k : Fin 10000, a (ix2 p k) * s (ix2 k q) := by
  exact l2Blk_entry a s p q

end Cert.KernelIdeal.Body

end
-- ==== Proof.Val.Final.lean ====
/-
  The result array after the run is the two-layer graph convolution of the four argument arrays.
  Every point of the second pass writes back its block of one whole-array function: the point's adjacency rows times
  S2, and S2 is, row by row, relu (adj S1) w2 with S1 = x w1; the 25 blocks of 400 rows cover the 10000 rows.
-/
import proofs.«152327_g12867722019435_cont_9to1_m_966_9_alg».proof.Proof.KI.Data
import proofs.«152327_g12867722019435_cont_9to1_m_966_9_alg».proof.Proof.Val.Payload
import proofs.«152327_g12867722019435_cont_9to1_m_966_9_alg».proof.Proof.Val.Spec
import Idealize.ShloMosaic.Lib.Pipeline.Value
import Idealize.ShloMosaic.Lib.ValueIdx

set_option maxRecDepth 16384

open scoped BigOperators

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The blocks the windows stage, as entries of the argument arrays -/

/-- The feature window's block is the whole feature matrix at every point. -/
private theorem b0_eq (c : Dev nD) (t : Fin cfg0.N) :
    (b0 m c t : FVec Ideal S10000x128 .f32) = m ((c.tc : Thread nD τ).loc main_arg0) := by
  funext j
  obtain ⟨p, q, rfl⟩ : ∃ (p : Fin 10000) (q : Fin 128), j = ix2 p q := ⟨j 0, j 1, eq_ix2 j⟩
  unfold b0 iblk
  rw [View.read_apply]
  show V m c main_arg0 _ = _
  unfold V
  congr 1
  funext a
  apply Fin.ext
  have h := index0 t
  match a with
  | ⟨0, _⟩ =>
    show win0_0.index t 0 * 10000 + 1 * p.val = p.val
    have e : win0_0.index t 0 = 0 := congrFun h 0
    rw [e]; omega
  | ⟨1, _⟩ =>
    show win0_0.index t 1 * 128 + 1 * q.val = q.val
    have e : win0_0.index t 1 = 0 := congrFun h 1
    rw [e]; omega

/-- The first weight window's block is the whole first weight matrix at every point. -/
private theorem b1_eq (c : Dev nD) (t : Fin cfg0.N) :
    (b1 m c t : FVec Ideal S128x128 .f32) = m ((c.tc : Thread nD τ).loc main_arg2) := by
  funext j
  obtain ⟨p, q, rfl⟩ : ∃ (p : Fin 128) (q : Fin 128), j = ix2 p q := ⟨j 0, j 1, eq_ix2 j⟩
  unfold b1 iblk
  rw [View.read_apply]
  show V m c main_arg2 _ = _
  unfold V
  congr 1
  funext a
  apply Fin.ext
  have h := index1 t
  match a with
  | ⟨0, _⟩ =>
    show win0_1.index t 0 * 128 + 1 * p.val = p.val
    have e : win0_1.index t 0 = 0 := congrFun h 0
    rw [e]; omega
  | ⟨1, _⟩ =>
    show win0_1.index t 1 * 128 + 1 * q.val = q.val
    have e : win0_1.index t 1 = 0 := congrFun h 1
    rw [e]; omega

/-- The second weight window's block is the whole second weight matrix at every point. -/
private theorem b2_eq (c : Dev nD) (t : Fin cfg0.N) :
    (b2 m c t : FVec Ideal S128x128 .f32) = m ((c.tc : Thread nD τ).loc main_arg3) := by
  funext j
  obtain ⟨p, q, rfl⟩ : ∃ (p : Fin 128) (q : Fin 128), j = ix2 p q := ⟨j 0, j 1, eq_ix2 j⟩
  unfold b2 iblk
  rw [View.read_apply]
  show V m c main_arg3 _ = _
  unfold V
  congr 1
  funext a
  apply Fin.ext
  have h := index2 t
  match a with
  | ⟨0, _⟩ =>
    show win0_2.index t 0 * 128 + 1 * p.val = p.val
    have e : win0_2.index t 0 = 0 := congrFun h 0
    rw [e]; omega
  | ⟨1, _⟩ =>
    show win0_2.index t 1 * 128 + 1 * q.val = q.val
    have e : win0_2.index t 1 = 0 := congrFun h 1
    rw [e]; omega

/-- The adjacency block of point t at (p, k) is the adjacency matrix at row 400 (t mod 25) + p, column k. -/
private theorem b3_apply (c : Dev nD) (t : Fin cfg0.N) (p : Fin 400) (k : Fin 10000) :
    (b3 m c t : FVec Ideal S400x10000 .f32) (ix2 p k)
      = (m ((c.tc : Thread nD τ).loc main_arg1) : FVec Ideal S10000x10000 .f32)
          (ix2 (⟨t.val % 25 * 400 + p.val, by have := Nat.mod_lt t.val (show 0 < 25 by omega); have := p.isLt; omega⟩ : Fin 10000) k) := by
  unfold b3 iblk
  rw [View.read_apply]
  show V m c main_arg1 _ = _
  unfold V
  congr 1
  funext a
  apply Fin.ext
  have h := index3 t
  match a with
  | ⟨0, _⟩ =>
    show win0_3.index t 0 * 400 + 1 * p.val = t.val % 25 * 400 + p.val
    have e : win0_3.index t 0 = t.val % 25 := congrFun h 0
    rw [e]; omega
  | ⟨1, _⟩ =>
    show win0_3.index t 1 * 10000 + 1 * k.val = k.val
    have e : win0_3.index t 1 = 0 := congrFun h 1
    rw [e]; omega

/-- In the second pass the result block of point t at (p, q) is the result array at row 400 (t - 25) + p, column q. -/
private theorem blk4_read (t : Fin cfg0.N) (ht : 25 ≤ t.val) (G : FVec Ideal S10000x128 .f32) (p : Fin 400) (q : Fin 128) :
    (((cfg0.win 4).blk t).view.read (Elt Ideal) G : FVec Ideal S400x128 .f32) (ix2 p q)
      = G (ix2 (⟨(t.val - 25) * 400 + p.val, by have := Nat.lt_of_lt_of_eq t.isLt N50; have := p.isLt; omega⟩ : Fin 10000) q) := by
  rw [View.read_apply]
  show G _ = _
  congr 1
  funext a
  apply Fin.ext
  have h := index4 t ht
  match a with
  | ⟨0, _⟩ =>
    show win0_4.index t 0 * 400 + 1 * p.val = (t.val - 25) * 400 + p.val
    have e : win0_4.index t 0 = t.val - 25 := congrFun h 0
    rw [e]; omega
  | ⟨1, _⟩ =>
    show win0_4.index t 1 * 128 + 1 * q.val = q.val
    have e : win0_4.index t 1 = 0 := congrFun h 1
    rw [e]; omega

/-! ## The two scratch arrays as matrix products -/

/-- S1 is the features times the first weight matrix. -/
private theorem S1_eq (c : Dev nD) :
    (S1 m c : FVec Ideal S10000x128 .bf16)
      = Cert.Spec.mm (m ((c.tc : Thread nD τ).loc main_arg0)) (m ((c.tc : Thread nD τ).loc main_arg2)) := by
  funext j
  obtain ⟨p, q, rfl⟩ : ∃ (p : Fin 10000) (q : Fin 128), j = ix2 p q := ⟨j 0, j 1, eq_ix2 j⟩
  unfold S1
  rw [s1Of_apply, b0_eq, b1_eq, Cert.Spec.mm_apply]

/-- Row r of the array is row r mod 400 of the block of point r / 400, for r below 10000. -/
private theorem row_eq (r : Fin 10000) (q : Fin 128) (h : (tRow (ix2 r q)).val % 25 * 400 + r.val % 400 < 10000) :
    (⟨(tRow (ix2 r q)).val % 25 * 400 + r.val % 400, h⟩ : Fin 10000) = r := by
  apply Fin.ext
  show (r.val / 400) % 25 * 400 + r.val % 400 = r.val
  have := r.isLt
  omega

/-- S2 is the clipped first layer times the second weight matrix. -/
private theorem S2_eq (c : Dev nD) :
    (S2 m c : FVec Ideal S10000x128 .bf16)
      = Cert.Spec.mm (Cert.Spec.relu (Cert.Spec.mm (m ((c.tc : Thread nD τ).loc main_arg1))
          (Cert.Spec.mm (m ((c.tc : Thread nD τ).loc main_arg0)) (m ((c.tc : Thread nD τ).loc main_arg2)))))
          (m ((c.tc : Thread nD τ).loc main_arg3)) := by
  funext j
  obtain ⟨r, q, rfl⟩ : ∃ (r : Fin 10000) (q : Fin 128), j = ix2 r q := ⟨j 0, j 1, eq_ix2 j⟩
  unfold S2
  show l1Blk (b3 m c (tRow (ix2 r q))) (S1 m c) (b2 m c (tRow (ix2 r q)))
      (ix2 (⟨r.val % 400, Nat.mod_lt _ (by omega)⟩ : Fin 400) q) = _
  rw [l1Blk_apply, Cert.Spec.mm_apply]
  refine Finset.sum_congr rfl fun j _ => ?_
  rw [b2_eq, Cert.Spec.relu_apply, Cert.Spec.mm_apply]
  congr 2
  exact Finset.sum_congr rfl fun k _ => by rw [b3_apply, S1_eq, row_eq]

/-! ## What each point of the second pass writes back, and the cover -/

/-- A written-back block is the block of the graph convolution: the point's adjacency rows times S2. -/
private theorem flushed4_eq (c : Dev nD) (t : Fin cfg0.N) (hf : (cfg0.win 4).flush t = true) :
    (dats m 0 c).flushed 4 t = ((cfg0.win 4).blk t).view.read (Elt Ideal)
      (Cert.Spec.gcn (m ((c.tc : Thread nD τ).loc main_arg0)) (m ((c.tc : Thread nD τ).loc main_arg1))
          (m ((c.tc : Thread nD τ).loc main_arg2)) (m ((c.tc : Thread nD τ).loc main_arg3))) := by
  have ht : 25 ≤ t.val := by
    by_contra hlt
    have := noflush4 t (by omega)
    rw [this] at hf
    exact Bool.false_ne_true hf
  have h50 : t.val < 50 := Nat.lt_of_lt_of_eq t.isLt N50
  show (cfg0.win 4).cut (grid0.coords t) ((dats m 0 c).after 4 t) = _
  rw [after4]
  refine funext fun (j : S400x128.Idx) => ?_
  obtain ⟨p, q, rfl⟩ : ∃ (p : Fin 400) (q : Fin 128), j = ix2 p q := ⟨j 0, j 1, eq_ix2 j⟩
  show (l2Blk (b3 m c t) (S2 m c) : FVec Ideal S400x128 .f32) (ix2 p q) = _
  rw [l2Blk_apply, blk4_read t ht]
  unfold Cert.Spec.gcn
  rw [Cert.Spec.mm_apply, S2_eq]
  refine Finset.sum_congr rfl fun k _ => ?_
  rw [b3_apply]
  congr 3
  apply Fin.ext
  show t.val % 25 * 400 + p.val = (t.val - 25) * 400 + p.val
  omega

/-- Row r of the result lies in the block the point 25 + r / 400 writes back. -/
private theorem cover4 (c : Dev nD) (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  let t : Fin cfg0.N := ⟨25 + (i 0).val / 400, by rw [N50]; omega⟩
  have ht : 25 ≤ t.val := Nat.le_add_right _ _
  refine ⟨t, flush4 t ht, ?_⟩
  show i ∈ ((View.whole main_v0).slice (win0_4.rect t)).set
  rw [View.set_slice_whole, Rect.mem_set_unit]
  have h := index4 t ht
  intro a
  match a with
  | ⟨0, _⟩ =>
    show win0_4.index t 0 * 400 ≤ (i 0).val ∧ (i 0).val < win0_4.index t 0 * 400 + 400
    have e : win0_4.index t 0 = t.val - 25 := congrFun h 0
    rw [e]
    show (25 + (i 0).val / 400 - 25) * 400 ≤ (i 0).val ∧ (i 0).val < (25 + (i 0).val / 400 - 25) * 400 + 400
    omega
  | ⟨1, _⟩ =>
    show win0_4.index t 1 * 128 ≤ (i 1).val ∧ (i 1).val < win0_4.index t 1 * 128 + 128
    have e : win0_4.index t 1 = 0 := congrFun h 1
    rw [e]; omega

/-- After every write-back the result array holds the graph convolution of the arguments as launched. -/
theorem final (c : Dev nD) :
    (dats m 0 c).arrAt 4 cfg0.N
      = Cert.Spec.gcn (m ((c.tc : Thread nD τ).loc main_arg0)) (m ((c.tc : Thread nD τ).loc main_arg1))
          (m ((c.tc : Thread nD τ).loc main_arg2)) (m ((c.tc : Thread nD τ).loc main_arg3)) := by
  exact (dats m 0 c).arrAt_eq_of_cover 4 _ (flushed4_eq m c) (cover4 c)

end Cert.KernelIdeal.Body

end
-- ==== Proof.Val.Run.lean ====
/-
  The idealized kernel's run with its result named: every weakly fair execution terminates with the result array
  at the two-layer graph convolution of the arguments as launched, and the arguments unchanged.
-/
import proofs.«152327_g12867722019435_cont_9to1_m_966_9_alg».proof.Proof.KI.Frame
import proofs.«152327_g12867722019435_cont_9to1_m_966_9_alg».proof.Proof.Val.Final

set_option maxRecDepth 16384

noncomputable section

namespace Cert.KernelIdeal.Body

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The run's post read at the result array (the output window's array after every write-back) and at the four
    argument arrays (input windows: never written). -/
theorem run_value : θ_run defs (onTc (τ := τ) (main (F := Ideal))) ⟨m, fun _ => 0, ρ⟩ (fun r => ∀ c : Dev nD,
      r.2.mem ((c.tc : Thread nD τ).loc main_v0)
        = Cert.Spec.gcn (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.Body

end
-- ==== Proof.Val.Ref.lean ====
/-
  The reference's result, read one operation at a time, is the two-layer graph convolution of the specification:
  each host matrix product is the finite sum of entrywise products, the clip against the broadcast zero constant
  is the maximum with zero.
-/
import proofs.«152327_g12867722019435_cont_9to1_m_966_9_alg».proof.Proof.Gen.ReferenceIdeal.Read
import proofs.«152327_g12867722019435_cont_9to1_m_966_9_alg».proof.Proof.Val.Spec
import Idealize.ShloMosaic.PureOps.Ideal.Laws
import Idealize.ShloMosaic.Lib.ValueIdx

open scoped BigOperators

noncomputable section

namespace Cert.ReferenceIdeal.RefValue

open Cert.ReferenceIdeal Cert.ReferenceIdeal.Gen Cert.ReferenceIdeal.Read
open Idealize.ShloMosaic Idealize.ShloMosaic.ValueIdx

/-- The left operand of a product at entry (p, q) is read at (p, k). -/
private theorem lidx_v0 (p : Fin 10000) (q k : Fin 128) : lidx_main_v0 (ix2 p q) k = ix2 p k :=
  funext fun a => Fin.ext (by match a with | ⟨0, _⟩ => rfl | ⟨1, _⟩ => rfl)
/-- The right operand of a product at entry (p, q) is read at (k, q). -/
private theorem ridx_v0 (p : Fin 10000) (q k : Fin 128) : ridx_main_v0 (ix2 p q) k = ix2 k q :=
  funext fun a => Fin.ext (by match a with | ⟨0, _⟩ => rfl | ⟨1, _⟩ => rfl)
private theorem lidx_v1 (p : Fin 10000) (q : Fin 128) (k : Fin 10000) : lidx_main_v1 (ix2 p q) k = ix2 p k :=
  funext fun a => Fin.ext (by match a with | ⟨0, _⟩ => rfl | ⟨1, _⟩ => rfl)
private theorem ridx_v1 (p : Fin 10000) (q : Fin 128) (k : Fin 10000) : ridx_main_v1 (ix2 p q) k = ix2 k q :=
  funext fun a => Fin.ext (by match a with | ⟨0, _⟩ => rfl | ⟨1, _⟩ => rfl)
private theorem lidx_v3 (p : Fin 10000) (q k : Fin 128) : lidx_main_v3 (ix2 p q) k = ix2 p k :=
  funext fun a => Fin.ext (by match a with | ⟨0, _⟩ => rfl | ⟨1, _⟩ => rfl)
private theorem ridx_v3 (p : Fin 10000) (q k : Fin 128) : ridx_main_v3 (ix2 p q) k = ix2 k q :=
  funext fun a => Fin.ext (by match a with | ⟨0, _⟩ => rfl | ⟨1, _⟩ => rfl)
private theorem lidx_v4 (p : Fin 10000) (q : Fin 128) (k : Fin 10000) : lidx_main_v4 (ix2 p q) k = ix2 p k :=
  funext fun a => Fin.ext (by match a with | ⟨0, _⟩ => rfl | ⟨1, _⟩ => rfl)
private theorem ridx_v4 (p : Fin 10000) (q : Fin 128) (k : Fin 10000) : ridx_main_v4 (ix2 p q) k = ix2 k q :=
  funext fun a => Fin.ext (by match a with | ⟨0, _⟩ => rfl | ⟨1, _⟩ => rfl)

/-- The first product: the features times the first weight matrix. -/
private theorem v0_eq (x0 : FVec Ideal S10000x128 .f32) (x2 : FVec Ideal S128x128 .f32) :
    val_main_v0 (F := Ideal) x0 x2 = Cert.Spec.mm x0 x2 := by
  funext i
  obtain ⟨p, q, rfl⟩ : ∃ (p : Fin 10000) (q : Fin 128), i = ix2 p q := ⟨i 0, i 1, eq_ix2 i⟩
  rw [val_main_v0_apply, Cert.Spec.mm_apply]
  refine Finset.sum_congr rfl fun k _ => ?_
  rw [lidx_v0, ridx_v0]

/-- The second product: the adjacency times the first product. -/
private theorem v1_eq (x0 : FVec Ideal S10000x128 .f32) (x1 : FVec Ideal S10000x10000 .f32) (x2 : FVec Ideal S128x128 .f32) :
    val_main_v1 (F := Ideal) x0 x1 x2 = Cert.Spec.mm x1 (Cert.Spec.mm x0 x2) := by
  funext i
  obtain ⟨p, q, rfl⟩ : ∃ (p : Fin 10000) (q : Fin 128), i = ix2 p q := ⟨i 0, i 1, eq_ix2 i⟩
  rw [val_main_v1_apply, Cert.Spec.mm_apply, v0_eq]
  refine Finset.sum_congr rfl fun k _ => ?_
  rw [lidx_v1, ridx_v1]

/-- The clip: the maximum with the broadcast zero constant is the maximum with zero. -/
private theorem v2_eq (x0 : FVec Ideal S10000x128 .f32) (x1 : FVec Ideal S10000x10000 .f32) (x2 : FVec Ideal S128x128 .f32) :
    val_main_v2 (F := Ideal) x0 x1 x2 = Cert.Spec.relu (Cert.Spec.mm x1 (Cert.Spec.mm x0 x2)) := by
  funext i
  rw [val_main_v2_apply, val_main_call0_v0_apply, val_main_call0_cst_apply, Cert.Spec.relu_apply, v1_eq,
    Ideal.maximumf_def, Ideal.ofBits_def, Ideal.ofBits_zero_f32]

/-- The third product: the clipped layer times the second weight matrix. -/
private theorem v3_eq (x0 : FVec Ideal S10000x128 .f32) (x1 : FVec Ideal S10000x10000 .f32) (x2 x3 : FVec Ideal S128x128 .f32) :
    val_main_v3 (F := Ideal) x0 x1 x2 x3 = Cert.Spec.mm (Cert.Spec.relu (Cert.Spec.mm x1 (Cert.Spec.mm x0 x2))) x3 := by
  funext i
  obtain ⟨p, q, rfl⟩ : ∃ (p : Fin 10000) (q : Fin 128), i = ix2 p q := ⟨i 0, i 1, eq_ix2 i⟩
  rw [val_main_v3_apply, Cert.Spec.mm_apply, v2_eq]
  refine Finset.sum_congr rfl fun k _ => ?_
  rw [lidx_v3, ridx_v3]

/-- The reference's result is the specification's function of its four arguments. -/
theorem ref_eq (x0 : FVec Ideal S10000x128 .f32) (x1 : FVec Ideal S10000x10000 .f32) (x2 x3 : FVec Ideal S128x128 .f32) :
    val_main_v4 (F := Ideal) x0 x1 x2 x3 = Cert.Spec.gcn x0 x1 x2 x3 := by
  funext i
  obtain ⟨p, q, rfl⟩ : ∃ (p : Fin 10000) (q : Fin 128), i = ix2 p q := ⟨i 0, i 1, eq_ix2 i⟩
  unfold Cert.Spec.gcn
  rw [val_main_v4_apply, Cert.Spec.mm_apply, v3_eq]
  refine Finset.sum_congr rfl fun k _ => ?_
  rw [lidx_v4, ridx_v4]

end Cert.ReferenceIdeal.RefValue

end
-- ==== Proof.lean ====
/-
  A two-layer graph convolution, out = adj (relu (adj (x w1)) w2), computed by one kernel over a grid of 50 points
  against the plain composition of four matrix products and a clip.

  The kernel keeps two 10000 x 128 scratch arrays. The first point fills the first with S1 = x w1. Points 0 to 24
  each take 400 rows of adj and fill the same 400 rows of the second scratch with relu (adj_rows S1) w2; after
  point 24 it holds S2 = relu (adj S1) w2. Points 25 to 49 each take 400 rows of adj again and write the same 400
  rows of the result, adj_rows S2. Each product against a 10000-row operand is taken in four column chunks
  (2560, 2560, 2560, 2320) whose partial products are added: at the ideal instance a finite sum cut in four,
  equal to the whole sum because addition of extended reals is commutative and associative; no finiteness of
  the inputs is used. A change of float format is the identity there, and a matrix product into a zero accumulator
  is the finite sum of products, on both sides.

  The three frames: the two kernel programs (one text in two namespaces) run under the same proof data at any
  float instance; the reference's frame is its run with the result dropped. The ideal pass rewrote nothing, so
  there is nothing to preserve.
-/
import proofs.«152327_g12867722019435_cont_9to1_m_966_9_alg».proof.Defs
import proofs.«152327_g12867722019435_cont_9to1_m_966_9_alg».proof.Proof.Gen.Kernel
import proofs.«152327_g12867722019435_cont_9to1_m_966_9_alg».proof.Proof.Gen.Kernel.Skeleton
import proofs.«152327_g12867722019435_cont_9to1_m_966_9_alg».proof.Proof.Gen.Kernel.Launch
import proofs.«152327_g12867722019435_cont_9to1_m_966_9_alg».proof.Proof.Gen.Kernel.Points
import proofs.«152327_g12867722019435_cont_9to1_m_966_9_alg».proof.Proof.Gen.Kernel.Frame
import proofs.«152327_g12867722019435_cont_9to1_m_966_9_alg».proof.Proof.Gen.KernelIdeal
import proofs.«152327_g12867722019435_cont_9to1_m_966_9_alg».proof.Proof.Gen.KernelIdeal.Skeleton
import proofs.«152327_g12867722019435_cont_9to1_m_966_9_alg».proof.Proof.Gen.KernelIdeal.Launch
import proofs.«152327_g12867722019435_cont_9to1_m_966_9_alg».proof.Proof.Gen.KernelIdeal.Points
import proofs.«152327_g12867722019435_cont_9to1_m_966_9_alg».proof.Proof.Gen.KernelIdeal.Frame
import proofs.«152327_g12867722019435_cont_9to1_m_966_9_alg».proof.Proof.Gen.ReferenceIdeal
import proofs.«152327_g12867722019435_cont_9to1_m_966_9_alg».proof.Proof.Gen.Pre_finite_inputs
import proofs.«152327_g12867722019435_cont_9to1_m_966_9_alg».proof.Proof.Gen.ReferenceIdeal.Run
import proofs.«152327_g12867722019435_cont_9to1_m_966_9_alg».proof.Proof.Gen.ReferenceIdeal.Read
import Idealize.ShloMosaic.Adequacy
import Idealize.ShloMosaic.Init
import proofs.«152327_g12867722019435_cont_9to1_m_966_9_alg».proof.Proof.KI.Frame
import proofs.«152327_g12867722019435_cont_9to1_m_966_9_alg».proof.Proof.KB.Frame
import proofs.«152327_g12867722019435_cont_9to1_m_966_9_alg».proof.Proof.Val.Run
import proofs.«152327_g12867722019435_cont_9to1_m_966_9_alg».proof.Proof.Val.Ref

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the graph convolution of the (agreeing) arguments in their result arrays. -/
theorem algebraic : Cert.algebraic_KernelIdeal_ReferenceIdeal := by
  intro m ρ m' ρ' _ hagree
  refine ⟨fun c => Cert.Spec.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v4_eq _ _ _ _).trans (Cert.ReferenceIdeal.RefValue.ref_eq _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
